-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x8 : Shape := ⟨2, ![800000, 8]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg7 : FVec F S128 .f32) (main_arg9 : IVec S50000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg9 main_v39
  let main_c_15 : IVec S_ 1 := constantI S_ 1 1#1
  let main_v41 : IVec S_ 1 := (fun x v => Host.reduce IntOp.andi x v reducesTo_S50000_S_d0 h_S_) main_v40 main_c_15
  let main_v42 : IVec S_ 1 := andi main_v38 main_v41
  main_v42

def fn_part1 {F : FTy → Type} [FloatOps F] (main_arg4 : FVec F S128x128 .f32) (main_arg5 : FVec F S128 .f32) (main_arg6 : FVec F S128x128 .f32) (main_arg7 : FVec F S128 .f32) (main_arg9 : IVec S50000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg9 main_v33

def fn {F : FTy → Type} [FloatOps F] (main_arg0 : FVec F S50000x128 .f32) (main_arg1 : FVec F S800000x8 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S2x800000 32) (main_arg9 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x8 .f32 := Host.absf main_arg1
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg9 main_v13 main_v16
-- ==== Kernel.lean ====
abbrev S50000x128 : Shape := ⟨2, ![50000, 128]⟩
abbrev S800000x8 : Shape := ⟨2, ![800000, 8]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S53248x128 : Shape := ⟨2, ![53248, 128]⟩
abbrev S53248 : Shape := ⟨1, ![53248]⟩
abbrev S512x128 : Shape := ⟨2, ![512, 128]⟩
abbrev S4096x128 : Shape := ⟨2, ![4096, 128]⟩
abbrev S4096 : Shape := ⟨1, ![4096]⟩
abbrev S4096x512 : Shape := ⟨2, ![4096, 512]⟩
abbrev S4096x1 : Shape := ⟨2, ![4096, 1]⟩
abbrev S512 : Shape := ⟨1, ![512]⟩
abbrev S50000x1 : Shape := ⟨2, ![50000, 1]⟩
abbrev S512x1 : Shape := ⟨2, ![512, 1]⟩

abbrev nBuf : Space → Nat
  | .hbm => 128
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S800000x8, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x800000, .i32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x128, .f32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x128, .f32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S850000x1, .i32⟩
  | .hbm, ⟨95, _⟩ => ⟨S50000x128, .f32⟩
  | .hbm, ⟨96, _⟩ => ⟨S50000x128, .f32⟩
  | .hbm, ⟨97, _⟩ => ⟨S_, .i32⟩
  | .hbm, ⟨98, _⟩ => ⟨S_, .f32⟩
  | .hbm, ⟨99, _⟩ => ⟨S53248x128, .f32⟩
  | .hbm, ⟨100, _⟩ => ⟨S_, .i32⟩
  | .hbm, ⟨101, _⟩ => ⟨S_, .i32⟩
  | .hbm, ⟨102, _⟩ => ⟨S53248, .i32⟩
  | .hbm, ⟨103, _⟩ => ⟨S512x128, .f32⟩
  | .hbm, ⟨104, _⟩ => ⟨S_, .i32⟩
  | .hbm, ⟨105, _⟩ => ⟨S512, .i32⟩
  | .hbm, ⟨106, _⟩ => ⟨S_, .i32⟩
  | .hbm, ⟨107, _⟩ => ⟨S_, .i32⟩
  | .hbm, ⟨108, _⟩ => ⟨S50000, .i32⟩
  | .hbm, ⟨109, _⟩ => ⟨S50000, .i32⟩
  | .hbm, ⟨110, _⟩ => ⟨S_, .i32⟩
  | .hbm, ⟨111, _⟩ => ⟨S50000, .i32⟩
  | .hbm, ⟨112, _⟩ => ⟨S50000, .i1⟩
  | .hbm, ⟨113, _⟩ => ⟨S_, .i32⟩
  | .hbm, ⟨114, _⟩ => ⟨S50000, .i32⟩
  | .hbm, ⟨115, _⟩ => ⟨S50000, .i32⟩
  | .hbm, ⟨116, _⟩ => ⟨S50000, .i32⟩
  | .hbm, ⟨117, _⟩ => ⟨S50000x1, .i32⟩
  | .hbm, ⟨118, _⟩ => ⟨S_, .i32⟩
  | .hbm, ⟨119, _⟩ => ⟨S50000, .i32⟩
  | .hbm, ⟨120, _⟩ => ⟨S512, .i32⟩
  | .hbm, ⟨121, _⟩ => ⟨S512, .f32⟩
  | .hbm, ⟨122, _⟩ => ⟨S_, .f32⟩
  | .hbm, ⟨123, _⟩ => ⟨S512, .f32⟩
  | .hbm, ⟨124, _⟩ => ⟨S512, .f32⟩
  | .hbm, ⟨125, _⟩ => ⟨S512x1, .f32⟩
  | .hbm, ⟨126, _⟩ => ⟨S512x128, .f32⟩
  | .hbm, ⟨127, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S4096x128, .f32⟩
  | .local _ .vmem, ⟨31, _⟩ => ⟨S4096x128, .f32⟩
  | .local _ .vmem, ⟨32, _⟩ => ⟨S4096, .i32⟩
  | .local _ .vmem, ⟨33, _⟩ => ⟨S4096, .i32⟩
  | .local _ .vmem, ⟨34, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_call0_v0 : Ref sig .tc := ⟨.hbm, 98, rfl⟩
abbrev main_v71 : Ref sig .tc := ⟨.hbm, 99, rfl⟩
abbrev main_c_15 : Ref sig .tc := ⟨.hbm, 100, rfl⟩
abbrev main_call1_v0 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_c_17 : Ref sig .tc := ⟨.hbm, 106, rfl⟩
abbrev main_call2_v0 : Ref sig .tc := ⟨.hbm, 107, rfl⟩
abbrev main_call2_v1 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_21 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![13], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  ![arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  pads_S50000x128_S53248x128_032480_000 : S50000x128.Pads (![0, 0] : Fin 2 → Nat) ![3248, 0] ![0, 0] S53248x128
  h_S_ : 0 < S_.numel
  pads_S50000_S53248_032480 : S50000.Pads (![0] : Fin 1 → Nat) ![3248] ![0] S53248
  inb_S512x128_S512x128_0_0 : ∀ a, (![0, 0] : Fin 2 → Nat) a + S512x128.size a ≤ S512x128.size a
  h_S512x128 : 0 < S512x128.numel
  inb_S4096_S4096_0 : ∀ a, (![0] : Fin 1 → Nat) a + S4096.size a ≤ S4096.size a
  h_S4096 : 0 < S4096.numel
  shapeCasts_S4096_S4096 : S4096.ShapeCasts S4096
  iota_S4096x512_d1_w32 : S4096x512.Iotas .tc 32 [1]
  shapeCasts_S4096_S4096x1 : S4096.ShapeCasts S4096x1
  broadcasts_S4096x1_S4096x512 : S4096x1.Broadcasts S4096x512
  natLt_1_32 : 1 < 32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S512x128_S512x128 : S512x128.ShapeCasts S512x128
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S4096x512_S4096x128_S512x128_0_0_1_1_n_n_wf : DotDims.WF S4096x512 S4096x128 S512x128 [0] [0] [1] [1] [] []
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S53248x128.size a
  hwx6_0 : ∀ i : grid6.Coords, EltTy.bits .f32 = 32 ∨ (Rect.block (s := S53248x128) S4096x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096.size a ≤ S53248.size a
  hwx6_1 : ∀ i : grid6.Coords, EltTy.bits .i32 = 32 ∨ (Rect.block (s := S53248) S4096.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S4096x512_S4096x128_S512x128_0_0_1_1_n_n : DotDims S4096x512 S4096x128 S512x128 where
  lhsContracting := [0]
  rhsContracting := [0]
  lhsNonContracting := [1]
  rhsNonContracting := [1]
  lhsBatch := []
  rhsBatch := []
  wf := dot_S4096x512_S4096x128_S512x128_0_0_1_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v56) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v71) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v73) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000x8 : Shape := ⟨2, ![800000, 8]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x8, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x800000, .i32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S50000x128, .f32⟩
  | .hbm, ⟨111, _⟩ => ⟨S50000x128, .f32⟩
  | .hbm, ⟨112, _⟩ => ⟨S_, .f32⟩
  | .hbm, ⟨113, _⟩ => ⟨S512x128, .f32⟩
  | .hbm, ⟨114, _⟩ => ⟨S50000x1, .i32⟩
  | .hbm, ⟨115, _⟩ => ⟨S512x128, .f32⟩
  | .hbm, ⟨116, _⟩ => ⟨S_, .f32⟩
  | .hbm, ⟨117, _⟩ => ⟨S50000, .f32⟩
  | .hbm, ⟨118, _⟩ => ⟨S_, .f32⟩
  | .hbm, ⟨119, _⟩ => ⟨S512, .f32⟩
  | .hbm, ⟨120, _⟩ => ⟨S50000x1, .i32⟩
  | .hbm, ⟨121, _⟩ => ⟨S512, .f32⟩
  | .hbm, ⟨122, _⟩ => ⟨S_, .f32⟩
  | .hbm, ⟨123, _⟩ => ⟨S512, .f32⟩
  | .hbm, ⟨124, _⟩ => ⟨S512, .f32⟩
  | .hbm, ⟨125, _⟩ => ⟨S512x1, .f32⟩
  | .hbm, ⟨126, _⟩ => ⟨S512x128, .f32⟩
  | .hbm, ⟨127, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_cst : Ref sig .tc := ⟨.hbm, 65, rfl⟩
abbrev main_call0_v0 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_call2_cst : Ref sig .tc := ⟨.hbm, 109, rfl⟩
abbrev main_call2_v0 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_15 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.Spec.lean ====
/-
  The graph network, written once over whole arrays with the host operations of the plain program:
  three rounds of "multiply by a weight matrix, gather along the edges (self loops appended), scale each edge by
  the product of the inverse square roots of its endpoints' degrees, add up at the edge's target, add a bias, clamp at
  zero", then per graph the sum of its nodes' rows divided by the larger of its node count and one.
  Every function here is the composition the plain program itself makes, so that its result is this term by
  unfolding; the tiled program's pieces are proved equal to these functions one at a time.
-/
import proofs.«406955_j40956808135086_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- Row `r` (0: sources, 1: targets) of the edge list, followed by the node numbers 0 … 49999 (one self loop per node). -/
def endsOf (r : Nat) (hr : S2x800000.Slices ![r, 0] S1x800000) (ei : IVec S2x800000 32) : IVec S850000 32 :=
  concatenate S850000 0 [⟨S800000, (shapeCast _ (extractStridedSlice S1x800000 ![r, 0] ei hr) shapeCasts_S1x800000_S800000)⟩, ⟨S50000, (iotaInDim S50000 32 0)⟩] concatenates_S800000_S50000_S850000_d0

/-- The sources, self loops appended. -/
def srcOf (ei : IVec S2x800000 32) : IVec S850000 32 := endsOf 0 slices_S2x800000_S1x800000_0_0 ei
/-- The targets, self loops appended. -/
def dstOf (ei : IVec S2x800000 32) : IVec S850000 32 := endsOf 1 slices_S2x800000_S1x800000_1_0 ei

/-- A negative node number counts from the end: 50000 is added to it. -/
def wrapNode (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- A node's degree: the number of edges (self loops included) whose target it is. -/
def degOf (ei : IVec S2x800000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dstOf ei)) (broadcastInDim S850000 ![] bcast_S_S850000 (constant S_ .f32 0x3F800000#32))

/-- The degree to the power −1/2. -/
def dinvOf (ei : IVec S2x800000 32) : FVec F S50000 .f32 :=
  Host.powf (degOf (F := F) ei) (broadcastInDim S50000 ![] bcast_S_S50000 (constant S_ .f32 0xBF000000#32))

/-- Per edge, the product of its two endpoints' inverse square-root degrees, as a column. -/
def coefCol (ei : IVec S2x800000 32) : FVec F S850000x1 .f32 :=
  broadcastInDim S850000x1 ![0] bcast_S850000_S850000x1_0 (mulf (Host.gather gather_S50000_S850000x1_S850000_n_0_n_n_0_1_1 (dinvOf (F := F) ei) (broadcastInDim S850000x1 ![0] bcast_S850000_S850000x1_0 (wrapNode (srcOf ei)))) (Host.gather gather_S50000_S850000x1_S850000_n_0_n_n_0_1_1 (dinvOf (F := F) ei) (broadcastInDim S850000x1 ![0] bcast_S850000_S850000x1_0 (wrapNode (dstOf ei)))))

/-- One round's aggregation of already multiplied rows: each edge carries its source's row, scaled, to its target,
    where the rows add up. -/
def aggregate (ei : IVec S2x800000 32) (lin : FVec F S50000x128 .f32) : FVec F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dstOf ei)) (mulf (Host.gather gather_S50000x128_S850000x1_S850000x128_1_0_n_n_0_1_1128 lin (broadcastInDim S850000x1 ![0] bcast_S850000_S850000x1_0 (wrapNode (srcOf ei)))) (broadcastInDim S850000x128 ![0, 1] bcast_S850000x1_S850000x128_0_1 (coefCol (F := F) ei)))

/-- Rows times a weight matrix. -/
def linear (h : FVec F S50000x128 .f32) (W : FVec F S128x128 .f32) : FVec F S50000x128 .f32 :=
  Host.dotGeneral dot_S50000x128_S128x128_S50000x128_1_0_0_1_n_n none h W

/-- Add the bias to every row and clamp at zero. -/
def biasRelu (a : FVec F S50000x128 .f32) (b : FVec F S128 .f32) : FVec F S50000x128 .f32 :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- One round. -/
def layer (ei : IVec S2x800000 32) (h : FVec F S50000x128 .f32) (W : FVec F S128x128 .f32) (b : FVec F S128 .f32) : FVec F S50000x128 .f32 :=
  biasRelu (aggregate ei (linear h W)) b

/-- Per graph, the sum of the rows of its nodes (a node whose graph number is outside 0 … 511 belongs to none). -/
def poolSum (h : FVec F S50000x128 .f32) (batch : IVec S50000 32) : FVec F S512x128 .f32 :=
  Host.scatterAdd scatter_S512x128_S50000x1_S50000x128_1_0_0_1 (broadcastInDim S512x128 ![] bcast_S_S512x128 (constant S_ .f32 0x00000000#32)) (broadcastInDim S50000x1 ![0] bcast_S50000_S50000x1_0 batch) h

/-- Per graph, the larger of its number of nodes and one. -/
def cntMax (batch : IVec S50000 32) : FVec F S512 .f32 :=
  maximumf (Host.scatterAdd scatter_S512_S50000x1_S50000_n_0_0_1 (broadcastInDim S512 ![] bcast_S_S512 (constant S_ .f32 0x00000000#32)) (broadcastInDim S50000x1 ![0] bcast_S50000_S50000x1_0 batch) (broadcastInDim S50000 ![] bcast_S_S50000 (constant S_ .f32 0x3F800000#32))) (broadcastInDim S512 ![] bcast_S_S512 (constant S_ .f32 0x3F800000#32))

/-- A per-graph number spread along each row. -/
def spreadRows (v : FVec F S512 .f32) : FVec F S512x128 .f32 :=
  broadcastInDim S512x128 ![0, 1] bcast_S512x1_S512x128_0_1 (broadcastInDim S512x1 ![0] bcast_S512_S512x1_0 v)

/-- The whole network: the per-graph mean (by the clamped count) of the third round's rows. -/
def out (x : FVec F S50000x128 .f32) (W1 : FVec F S128x128 .f32) (b1 : FVec F S128 .f32) (W2 : FVec F S128x128 .f32) (b2 : FVec F S128 .f32)
    (W3 : FVec F S128x128 .f32) (b3 : FVec F S128 .f32) (ei : IVec S2x800000 32) (batch : IVec S50000 32) : FVec F S512x128 .f32 :=
  Host.divf (poolSum (layer ei (layer ei (layer ei x W1 b1) W2 b2) W3 b3) batch) (spreadRows (cntMax (F := F) batch))

end Cert.Gcn

end
-- ==== Proof.KernelHost.lean ====
/-
  The tiled program's own host arithmetic around its last stage, named: the rows padded with zero rows and the graph
  numbers padded with −1 up to 13 tiles of 4096; the per-graph node count as that program takes it (negative graph
  numbers clamped to 0, an integer scatter of ones, converted, clamped below by one, spread along the rows); and what
  the last stage adds up, written as one sum over all padded rows.
-/
import proofs.«406955_j40956808135086_1_alg».proof.Proof.Gen.KernelIdeal
import Idealize.ShloMosaic.PureOps.Ideal
import Idealize.ShloMosaic.Lib.ValueIdx

noncomputable section

namespace Cert.Gcn.Kernel

open Idealize.ShloMosaic Idealize.ShloMosaic.ValueIdx Cert.KernelIdeal Cert.KernelIdeal.Gen

variable {F : FTy → Type} [FloatOps F]

/-- The node rows followed by 3248 zero rows. -/
def padRows (h : FVec F S50000x128 .f32) : FVec F S53248x128 .f32 :=
  pad S53248x128 ![0, 0] ![3248, 0] ![0, 0] h (sitofp .f32 (constantI S_ 32 0#32)) pads_S50000x128_S53248x128_032480_000 h_S_

/-- The graph numbers followed by 3248 words −1. -/
def padBatch (b : IVec S50000 32) : IVec S53248 32 :=
  pad S53248 ![0] ![3248] ![0] b (id (constantI S_ 32 4294967295#32)) pads_S50000_S53248_032480 h_S_

/-- Graph numbers with the negative ones replaced by 0. -/
def clipNonneg (b : IVec S50000 32) : IVec S50000 32 :=
  maxsi (broadcastInDim S50000 ![] bcast_S_S50000 (id (constantI S_ 32 0#32))) b

/-- A negative index counts from the end: 512 is added to it. -/
def wrapGraph (v : IVec S50000 32) : IVec S50000 32 :=
  select (cmpi .slt v (broadcastInDim S50000 ![] bcast_S_S50000 (constantI S_ 32 0#32))) (addi v (broadcastInDim S50000 ![] bcast_S_S50000 (constantI S_ 32 512#32))) v

/-- Per graph, the integer number of nodes whose (clamped) graph number it is. -/
def cntWords (b : IVec S50000 32) : IVec S512 32 :=
  Host.scatter scatter_S512_S50000x1_S50000_n_0_0_1 IntOp.addi (broadcastInDim S512 ![] bcast_S_S512 (constantI S_ 32 0#32)) (broadcastInDim S50000x1 ![0] bcast_S50000_S50000x1_0 (wrapGraph (clipNonneg b))) (broadcastInDim S50000 ![] bcast_S_S50000 (constantI S_ 32 1#32))

/-- The divisor array of the tiled program: the count, converted, at least one, along each row. -/
def cntK (b : IVec S50000 32) : FVec F S512x128 .f32 :=
  broadcastInDim S512x128 ![0, 1] bcast_S512x1_S512x128_0_1 (broadcastInDim S512x1 ![0] bcast_S512_S512x1_0 (maximumf (sitofp .f32 (cntWords b)) (broadcastInDim S512 ![] bcast_S_S512 (constant S_ .f32 0x3F800000#32))))

/-- 1 where the word is the graph number `g`, else 0. -/
def oneHot (w : BitVec 32) (g : Nat) : EReal := if w = BitVec.ofNat 32 g then 1 else 0

/-- Per graph and column, the sum over ALL 53248 padded rows of the row's entry times the indicator that the row's
    graph word is that graph. -/
def tiledPool (h : FVec Ideal S53248x128 .f32) (b : IVec S53248 32) : FVec Ideal S512x128 .f32 :=
  fun i => ∑ r : Fin 53248, oneHot (b (ix1 r)) (i 0).val * h (ix2 r (⟨(i 1).val, idx2_lt1 i⟩ : Fin 128))

end Cert.Gcn.Kernel

end
-- ==== Proof.LinValue.lean ====
/-
  The three weight products of the tiled program. Each is computed ten row blocks at a time: point t takes rows
  5000·t … 5000·t + 4999 of the node rows and the whole 128 × 128 weight matrix, and writes back the block's product,
  whose entry (p, q) is the sum over k of row p's entry k times the weights' entry (k, q) (a change of float format is
  the identity on the extended reals, and the product starts from a zero accumulator). Entry (5000·t + p, q) of the
  whole-array product is the same sum, so every block written back is a block of the one whole product, and the ten
  blocks cover all 50000 rows.
-/
import proofs.«406955_j40956808135086_1_alg».proof.Proof.Gen.KernelIdeal.Frame
import proofs.«406955_j40956808135086_1_alg».proof.Proof.Spec
import Idealize.ShloMosaic.Lib.ValueIdx
import Idealize.ShloMosaic.Lib.Pipeline.Value
import Idealize.ShloMosaic.PureOps.Ideal.Laws
set_option maxRecDepth 16384

noncomputable section

namespace Cert.Gcn.Kernel

open Idealize.ShloMosaic Idealize.ShloMosaic.TcCoe Idealize.SL.Sem
open Cert.KernelIdeal Cert.KernelIdeal.Gen

open Idealize.ShloMosaic.ValueIdx

variable (V : (c : Dev nD) → (b : Ref sig .tc) → Buf (Elt Ideal) ((c : Thread nD τ).loc b))

namespace Lin

theorem zeroOff : (![0, 0] : Fin 2 → Nat) = fun _ => 0 := funext fun a => by fin_cases a <;> rfl

/-! ## One block: 5000 rows times the whole weight matrix -/

theorem blkL_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blkL_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blkR_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blkR_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a row block with the weights, into a zero accumulator, entry by entry. -/
theorem blockProduct_apply (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blkL_0 _ _
    | ⟨1, _⟩ => exact (blkL_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blkR_0 _ _).trans hk
    | ⟨1, _⟩ => exact blkR_1 _ _)
  rw [el, er]

/-- What the body leaves in its output block: entry (p, q) is the sum over k of the row block's (p, k) times the weights' (k, q). -/
theorem out0_apply (x0 : Vec Ideal S5000x128 .f32) (x1 : Vec Ideal S128x128 .f32) (p : Fin 5000) (q : Fin 128) :
    out0_2 (F := Ideal) x0 x1 (ix2 p q) = ∑ k : Fin 128, x0 (ix2 p k) * x1 (ix2 k q) := by
  unfold out0_2
  rw [View.canon_unit_zero zeroOff]
  simp only [View.ld_unit_zero (S := S5000x128) zeroOff, View.ld_unit_zero (S := S128x128) zeroOff]
  unfold k0_pay1
  exact blockProduct_apply _ _ p q

/-! ## The whole product, entry by entry -/

theorem allL_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem allL_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem allR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem allR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- Rows times weights over the whole array: entry (r, q) is the sum over k of h(r, k) · W(k, q). -/
theorem linear_apply (h : FVec Ideal Cert.ReferenceIdeal.S50000x128 .f32) (W : FVec Ideal Cert.ReferenceIdeal.S128x128 .f32) (r : Fin 50000) (q : Fin 128) :
    Cert.Gcn.linear (F := Ideal) h W (ix2 r q) = ∑ k : Fin 128, h (ix2 r k) * W (ix2 k q) := by
  unfold Cert.Gcn.linear
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact allL_0 _ _
    | ⟨1, _⟩ => exact (allL_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (allR_0 _ _).trans hk
    | ⟨1, _⟩ => exact allR_1 _ _)
  rw [el, er]

/-- Row p of the block at rows 5000·t … is row 5000·t + p of the whole product: the same sum, when the block's rows are
    those rows of h and the weights are the whole of W. -/
theorem block_is_rows (x0 : Vec Ideal S5000x128 .f32) (x1 : Vec Ideal S128x128 .f32)
    (h : FVec Ideal Cert.ReferenceIdeal.S50000x128 .f32) (W : FVec Ideal Cert.ReferenceIdeal.S128x128 .f32)
    (n : Nat) (p : Fin 5000) (q : Fin 128) (r : Fin 50000) (hr : r.val = n * 5000 + p.val)
    (h0 : ∀ (k : Fin 128), x0 (ix2 p k) = h (ix2 r k)) (h1 : ∀ (k : Fin 128), x1 (ix2 k q) = W (ix2 k q)) :
    out0_2 (F := Ideal) x0 x1 (ix2 p q) = Cert.Gcn.linear (F := Ideal) h W (ix2 r q) := by
  rw [out0_apply, linear_apply]
  exact Finset.sum_congr rfl fun k _ => by rw [h0 k, h1 k]

/-! ## Region 0 -/

/-- The index maps, decided over the ten points: the row windows sit at block t, the weights at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (F := Ideal) V c).flushed 2 t = ((cfg0.win 2).blk t).view.read (Elt Ideal) (Cert.Gcn.linear (F := Ideal) (V c main_arg0) (V c main_arg2)) := by
  show (cfg0.win 2).cut (grid0.coords t) ((dat0 V c).after 2 t) = _
  rw [after0_2]
  obtain ⟨e0, e1, e2, e3, e4, e5⟩ := idx0 t
  funext j
  obtain ⟨p, q, rfl⟩ : ∃ (p : Fin 5000) (q : Fin 128), j = ix2 p q := ⟨j 0, j 1, eq_ix2 j⟩
  have ht : t.val < 10 := lt_of_lt_of_eq t.isLt N_0
  have hp : p.val < 5000 := p.isLt
  have hemb : ((cfg0.win 2).blk t).view.emb (ix2 p q) = (ix2 (⟨t.val * 5000 + p.val, by omega⟩ : Fin 50000) q : S50000x128.Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  show out0_2 (F := Ideal) (iblk0 V c 0 t) (iblk0 V c 1 t) (ix2 p q) = Cert.Gcn.linear (F := Ideal) (V c main_arg0) (V c main_arg2) (((cfg0.win 2).blk t).view.emb (ix2 p q))
  rw [hemb]
  refine block_is_rows (iblk0 V c 0 t) (iblk0 V c 1 t) (V c main_arg0) (V c main_arg2) t.val p q ⟨t.val * 5000 + p.val, by omega⟩ rfl (fun k => ?_) (fun k => ?_)
  · show V c main_arg0 (((cfg0.win 0).blk t).view.emb (ix2 p k)) = V c main_arg0 (ix2 (⟨t.val * 5000 + p.val, by omega⟩ : Fin 50000) k : S50000x128.Idx)
    refine congrArg (V c main_arg0) (funext fun a => Fin.ext ?_)
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega
  · show V c main_arg2 (((cfg0.win 1).blk t).view.emb (ix2 k q)) = V c main_arg2 (ix2 k q : S128x128.Idx)
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega

/-- Row r of the array lies in the block of point r / 5000. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  obtain ⟨e0, e1, e2, e3, e4, e5⟩ := idx0 ⟨(i 0).val / 5000, by rw [hN]; omega⟩
  rw [mem_blk0]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-! ## The second and third rounds' products: the same body after a cast of the row block to its own shape -/

theorem out2_eq (x0 : Vec Ideal S5000x128 .f32) (x1 : Vec Ideal S128x128 .f32) :
    out2_2 (F := Ideal) x0 x1 = out0_2 (F := Ideal) x0 x1 := by
  unfold out2_2 out0_2 k2_pay1 k0_pay1
  simp only [shapeCast_self]

theorem out4_eq (x0 : Vec Ideal S5000x128 .f32) (x1 : Vec Ideal S128x128 .f32) :
    out4_2 (F := Ideal) x0 x1 = out0_2 (F := Ideal) x0 x1 := by
  unfold out4_2 out0_2 k4_pay1 k0_pay1
  simp only [shapeCast_self]

/-! ## Region 2 -/

/-- The index maps, decided over the ten points: the row windows sit at block t, the weights at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (c : Dev nD) (t : Fin cfg2.N) :
    (dat2 (F := Ideal) V c).flushed 2 t = ((cfg2.win 2).blk t).view.read (Elt Ideal) (Cert.Gcn.linear (F := Ideal) (V c main_v42) (V c main_arg4)) := by
  show (cfg2.win 2).cut (grid2.coords t) ((dat2 V c).after 2 t) = _
  rw [after2_2]
  obtain ⟨e0, e1, e2, e3, e4, e5⟩ := idx2 t
  funext j
  obtain ⟨p, q, rfl⟩ : ∃ (p : Fin 5000) (q : Fin 128), j = ix2 p q := ⟨j 0, j 1, eq_ix2 j⟩
  have ht : t.val < 10 := lt_of_lt_of_eq t.isLt N_2
  have hp : p.val < 5000 := p.isLt
  have hemb : ((cfg2.win 2).blk t).view.emb (ix2 p q) = (ix2 (⟨t.val * 5000 + p.val, by omega⟩ : Fin 50000) q : S50000x128.Idx) := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 128 + 1 * q.val = q.val; rw [e5]; omega
  show out2_2 (F := Ideal) (iblk2 V c 0 t) (iblk2 V c 1 t) (ix2 p q) = Cert.Gcn.linear (F := Ideal) (V c main_v42) (V c main_arg4) (((cfg2.win 2).blk t).view.emb (ix2 p q))
  rw [hemb]
  refine (congrFun (out2_eq (iblk2 V c 0 t) (iblk2 V c 1 t)) (ix2 p q)).trans ?_
  refine block_is_rows (iblk2 V c 0 t) (iblk2 V c 1 t) (V c main_v42) (V c main_arg4) t.val p q ⟨t.val * 5000 + p.val, by omega⟩ rfl (fun k => ?_) (fun k => ?_)
  · show V c main_v42 (((cfg2.win 0).blk t).view.emb (ix2 p k)) = V c main_v42 (ix2 (⟨t.val * 5000 + p.val, by omega⟩ : Fin 50000) k : S50000x128.Idx)
    refine congrArg (V c main_v42) (funext fun a => Fin.ext ?_)
    match a with
    | ⟨0, _⟩ => show win2_0.index t (0 : Fin 2) * 5000 + 1 * p.val = t.val * 5000 + p.val; rw [e0]; omega
    | ⟨1, _⟩ => show win2_0.index t (1 : Fin 2) * 128 + 1 * k.val = k.val; rw [e1]; omega
  · show V c main_arg4 (((cfg2.win 1).blk t).view.emb (ix2 k q)) = V c main_arg4 (ix2 k q : S128x128.Idx)
    refine congrArg (V c main_arg4) (funext fun a => Fin.ext ?_)
    match a with
    | ⟨0, _⟩ => show win2_1.index t (0 : Fin 2) * 128 + 1 * k.val = k.val; rw [e2]; omega
    | ⟨1, _⟩ => show win2_1.index t (1 : Fin 2) * 128 + 1 * q.val = q.val; rw [e3]; omega

/-- Row r of the array lies in the block of point r / 5000. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_2 _, ?_⟩
  obtain ⟨e0, e1, e2, e3, e4, e5⟩ := idx2 ⟨(i 0).val / 5000, by rw [hN]; omega⟩
  rw [mem_blk2]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-! ## Region 4 -/

/-- The index maps, decided over the ten points: the row windows sit at block t, the weights at block 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed4_eq (c : Dev nD) (t : Fin cfg4.N) :
    (dat4 (F := Ideal) V c).flushed 2 t = ((cfg4.win 2).blk t).view.read (Elt Ideal) (Cert.Gcn.linear (F := Ideal) (V c main_v56) (V c main_arg6)) := by
  show (cfg4.win 2).cut (grid4.coords t) ((dat4 V c).after 2 t) = _
  rw [after4_2]
  obtain ⟨e0, e1, e2, e3, e4, e5⟩ := idx4 t
  funext j
  obtain ⟨p, q, rfl⟩ : ∃ (p : Fin 5000) (q : Fin 128), j = ix2 p q := ⟨j 0, j 1, eq_ix2 j⟩
  have ht : t.val < 10 := lt_of_lt_of_eq t.isLt N_4
  have hp : p.val < 5000 := p.isLt
  have hemb : ((cfg4.win 2).blk t).view.emb (ix2 p q) = (ix2 (⟨t.val * 5000 + p.val, by omega⟩ : Fin 50000) q : S50000x128.Idx) := by
    funext a; apply Fin.ext
    match a with
    | ⟨0, _⟩ => show win4_2.index t (0 : Fin 2) * 5000 + 1 * p.val = t.val * 5000 + p.val; rw [e4]; omega
    | ⟨1, _⟩ => show win4_2.index t (1 : Fin 2) * 128 + 1 * q.val = q.val; rw [e5]; omega
  show out4_2 (F := Ideal) (iblk4 V c 0 t) (iblk4 V c 1 t) (ix2 p q) = Cert.Gcn.linear (F := Ideal) (V c main_v56) (V c main_arg6) (((cfg4.win 2).blk t).view.emb (ix2 p q))
  rw [hemb]
  refine (congrFun (out4_eq (iblk4 V c 0 t) (iblk4 V c 1 t)) (ix2 p q)).trans ?_
  refine block_is_rows (iblk4 V c 0 t) (iblk4 V c 1 t) (V c main_v56) (V c main_arg6) t.val p q ⟨t.val * 5000 + p.val, by omega⟩ rfl (fun k => ?_) (fun k => ?_)
  · show V c main_v56 (((cfg4.win 0).blk t).view.emb (ix2 p k)) = V c main_v56 (ix2 (⟨t.val * 5000 + p.val, by omega⟩ : Fin 50000) k : S50000x128.Idx)
    refine congrArg (V c main_v56) (funext fun a => Fin.ext ?_)
    match a with
    | ⟨0, _⟩ => show win4_0.index t (0 : Fin 2) * 5000 + 1 * p.val = t.val * 5000 + p.val; rw [e0]; omega
    | ⟨1, _⟩ => show win4_0.index t (1 : Fin 2) * 128 + 1 * k.val = k.val; rw [e1]; omega
  · show V c main_arg6 (((cfg4.win 1).blk t).view.emb (ix2 k q)) = V c main_arg6 (ix2 k q : S128x128.Idx)
    refine congrArg (V c main_arg6) (funext fun a => Fin.ext ?_)
    match a with
    | ⟨0, _⟩ => show win4_1.index t (0 : Fin 2) * 128 + 1 * k.val = k.val; rw [e2]; omega
    | ⟨1, _⟩ => show win4_1.index t (1 : Fin 2) * 128 + 1 * q.val = q.val; rw [e3]; omega

/-- Row r of the array lies in the block of point r / 5000. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v57).slice (win4_2.rect t)).set ↔ _
  rw [View.set_slice_whole, Rect.mem_set_unit]
  exact Iff.rfl

theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_2 _, ?_⟩
  obtain ⟨e0, e1, e2, e3, e4, e5⟩ := idx4 ⟨(i 0).val / 5000, by rw [hN]; omega⟩
  rw [mem_blk4]
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 128 ≤ (i 1).val ∧ (i 1).val < win4_2.index _ (1 : Fin 2) * 128 + 128; rw [e5]; omega

end Lin

/-! ## The three products as whole arrays -/

theorem lin0 (c : Dev nD) :
    (dat0 (F := Ideal) V c).arrAt 2 cfg0.N = Cert.Gcn.linear (F := Ideal) (V c main_arg0) (V c main_arg2) :=
  (dat0 (F := Ideal) V c).arrAt_eq_of_cover 2 (Cert.Gcn.linear (F := Ideal) (V c main_arg0) (V c main_arg2)) (fun t _ => Lin.flushed0_eq V c t) Lin.cover0

theorem lin2 (c : Dev nD) :
    (dat2 (F := Ideal) V c).arrAt 2 cfg2.N = Cert.Gcn.linear (F := Ideal) (V c main_v42) (V c main_arg4) :=
  (dat2 (F := Ideal) V c).arrAt_eq_of_cover 2 (Cert.Gcn.linear (F := Ideal) (V c main_v42) (V c main_arg4)) (fun t _ => Lin.flushed2_eq V c t) Lin.cover2

theorem lin4 (c : Dev nD) :
    (dat4 (F := Ideal) V c).arrAt 2 cfg4.N = Cert.Gcn.linear (F := Ideal) (V c main_v56) (V c main_arg6) :=
  (dat4 (F := Ideal) V c).arrAt_eq_of_cover 2 (Cert.Gcn.linear (F := Ideal) (V c main_v56) (V c main_arg6)) (fun t _ => Lin.flushed4_eq V c t) Lin.cover4

end Cert.Gcn.Kernel

end
-- ==== Proof.BrValue.lean ====
/-
  The bias-and-clamp step of each of the three rounds: a grid of ten points, point t taking rows 5000·t … 5000·t + 4999
  of the aggregated rows and the whole bias vector, and writing back, entry by entry, the larger of (entry + bias entry
  of the same column) and zero. Read at an entry, that is the same formula as the whole-array clamp of the sum with the
  bias laid along every row; the ten row blocks tile the 50000 rows, so the array the region leaves is that whole-array
  function of the two arrays the region finds. The three rounds run the same body on different buffers.
-/
import proofs.«406955_j40956808135086_1_alg».proof.Proof.Gen.KernelIdeal.Frame
import proofs.«406955_j40956808135086_1_alg».proof.Proof.Spec
import Idealize.ShloMosaic.Lib.ValueIdx
import Idealize.ShloMosaic.Lib.Pipeline.Value
import Idealize.ShloMosaic.Lib.ValueLayout
set_option maxRecDepth 16384

noncomputable section

namespace Cert.Gcn.Kernel

open Idealize.ShloMosaic Idealize.ShloMosaic.TcCoe Idealize.SL.Sem
open Cert.KernelIdeal Cert.KernelIdeal.Gen

open Idealize.ShloMosaic.ValueIdx

variable (V : (c : Dev nD) → (b : Ref sig .tc) → Buf (Elt Ideal) ((c : Thread nD τ).loc b))

namespace Br

/-- The two spellings of "no offset" on a matrix and on a vector. -/
theorem zero_off2 : (![0, 0] : Fin 2 → Nat) = fun _ => 0 := funext fun a => by fin_cases a <;> rfl
theorem zero_off1 : (![0] : Fin 1 → Nat) = fun _ => 0 := funext fun a => by fin_cases a; rfl

/-- The clamp's floor: the extended real the zero word encodes. -/
abbrev floor0 : Ideal .f32 := Ideal.ofBits .f32 0x00000000#32

/-- One row block after the body: at row p, column q, the block's entry plus the bias' entry q, clamped below at zero. -/
theorem rowBlock_apply (x0 : Vec Ideal S5000x128 .f32) (x1 : Vec Ideal S128 .f32) (p : Fin 5000) (q : Fin 128) :
    out1_2 (F := Ideal) x0 x1 (ix2 p q) = max (x0 (ix2 p q) + x1 (ix1 q)) floor0 := by
  unfold out1_2
  rw [View.canon_unit_zero zero_off2, View.ld_unit_zero (S := S5000x128) zero_off2, View.ld_unit_zero (S := S128) zero_off1]
  unfold k1_pay1
  rw [maximumf_apply, addf_apply, broadcast_apply, shapeCast_self, broadcastTo_1b_ab_apply, shapeCast_a_1a_apply]
  rfl

/-- The whole-array function at row r, column q: the same formula. -/
theorem biasRelu_apply (a : FVec Ideal Cert.ReferenceIdeal.S50000x128 .f32) (b : FVec Ideal Cert.ReferenceIdeal.S128 .f32) (r : Fin 50000) (q : Fin 128) :
    Cert.Gcn.biasRelu (F := Ideal) a b (ix2 r q) = max (a (ix2 r q) + b (ix1 q)) floor0 := by
  unfold Cert.Gcn.biasRelu
  rw [maximumf_apply, addf_apply]
  rw [broadcastInDim_apply ![0, 1] _ _ (ix2 r q) (ix2 (0 : Fin 1) q) (fun a => by
        match a with
        | ⟨0, _⟩ => rfl
        | ⟨1, _⟩ => rfl)]
  rw [broadcastInDim_apply ![1] _ b (ix2 (0 : Fin 1) q) (ix1 q) (fun a => by
        match a with
        | ⟨0, _⟩ => rfl)]
  rfl

/-! ## The first round's clamp -/

/-- The printed index maps over the ten points: point t's row block is block t of the rows, every column; the bias is taken whole. -/
theorem blockIdx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 ∧ t.val < 10 :=
  (by decide +kernel : ∀ t : Fin grid1.N, _)

/-- What point t writes back is rows 5000·t … 5000·t + 4999 of the clamped sum over the whole arrays. -/
theorem flushed1_eq (c : Dev nD) (t : Fin cfg1.N) :
    (dat1 (F := Ideal) V c).flushed 2 t
      = ((cfg1.win 2).blk t).view.read (Elt Ideal) (Cert.Gcn.biasRelu (F := Ideal) (V c main_v41) (V c main_arg3)) := by
  show (cfg1.win 2).cut (grid1.coords t) ((dat1 V c).after 2 t) = _
  rw [after1_2]
  obtain ⟨e00, e01, e10, e20, e21, ht⟩ := blockIdx1 t
  funext j
  obtain ⟨p, q, rfl⟩ : ∃ (p : Fin 5000) (q : Fin 128), j = ix2 p q := ⟨j 0, j 1, eq_ix2 j⟩
  have hp : p.val < 5000 := p.isLt
  have e2 : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have e0 : ((cfg1.win 0).blk t).view.emb (ix2 p q) = ix2 (⟨t.val * 5000 + p.val, by omega⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have e1 : ((cfg1.win 1).blk t).view.emb (ix1 q) = ix1 q := by
    funext a; apply Fin.ext
    match a with
    | ⟨0, _⟩ => show win1_1.index t (0 : Fin 1) * 128 + 1 * q.val = q.val; omega
  show out1_2 (iblk1 V c 0 t) (iblk1 V c 1 t) (ix2 p q)
      = Cert.Gcn.biasRelu (F := Ideal) (V c main_v41) (V c main_arg3) (((cfg1.win 2).blk t).view.emb (ix2 p q))
  rw [e2, biasRelu_apply]
  refine (rowBlock_apply (iblk1 V c 0 t) (iblk1 V c 1 t) p q).trans ?_
  have h0 : (iblk1 V c 0 t : Vec Ideal S5000x128 .f32) (ix2 p q)
      = (V c main_v41 : FVec Ideal S50000x128 .f32) (ix2 (⟨t.val * 5000 + p.val, by omega⟩ : Fin 50000) q) := by
    show V c main_v41 (((cfg1.win 0).blk t).view.emb (ix2 p q)) = _
    rw [e0]
  have h1 : (iblk1 V c 1 t : Vec Ideal S128 .f32) (ix1 q) = (V c main_arg3 : FVec Ideal S128 .f32) (ix1 q) := by
    show V c main_arg3 (((cfg1.win 1).blk t).view.emb (ix1 q)) = _
    rw [e1]
  rw [h0, h1]

/-- An entry of the array lies in point t's block exactly when each coordinate lies in the block's range on its axis. -/
theorem mem_rows1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v42).slice (win1_2.rect t)).set ↔ _
  rw [View.set_slice_whole, Rect.mem_set_unit]
  exact Iff.rfl

end Br

/-- Row r is written by point r / 5000, so after the ten points the array holds the clamped sum everywhere. -/
theorem br1 (c : Dev nD) :
    (dat1 (F := Ideal) V c).arrAt 2 cfg1.N = Cert.Gcn.biasRelu (F := Ideal) (V c main_v41) (V c main_arg3) :=
  (dat1 (F := Ideal) V c).arrAt_eq_of_cover 2 _ (fun t _ => Br.flushed1_eq V c t) fun i => by
    have h0 : (i 0).val < 50000 := (i 0).isLt
    have h1 : (i 1).val < 128 := (i 1).isLt
    have hN : cfg1.N = 10 := N_1
    obtain ⟨t, ht⟩ : ∃ t : Fin cfg1.N, t.val = (i 0).val / 5000 := ⟨⟨(i 0).val / 5000, by rw [hN]; omega⟩, rfl⟩
    obtain ⟨-, -, -, e20, e21, -⟩ := Br.blockIdx1 t
    refine ⟨t, flush1_2 t, ?_⟩
    rw [Br.mem_rows1]
    intro a
    match a with
    | ⟨0, _⟩ =>
      show win1_2.index t (0 : Fin 2) * 5000 ≤ (i 0).val ∧ (i 0).val < win1_2.index t (0 : Fin 2) * 5000 + 5000
      omega
    | ⟨1, _⟩ =>
      show win1_2.index t (1 : Fin 2) * 128 ≤ (i 1).val ∧ (i 1).val < win1_2.index t (1 : Fin 2) * 128 + 128
      omega

namespace Br

/-! ## The second round's clamp: the same body on the second round's buffers -/

theorem rowBlock3_apply (x0 : Vec Ideal S5000x128 .f32) (x1 : Vec Ideal S128 .f32) (p : Fin 5000) (q : Fin 128) :
    out3_2 (F := Ideal) x0 x1 (ix2 p q) = max (x0 (ix2 p q) + x1 (ix1 q)) floor0 :=
  rowBlock_apply x0 x1 p q

theorem blockIdx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 ∧ t.val < 10 :=
  (by decide +kernel : ∀ t : Fin grid3.N, _)

theorem flushed3_eq (c : Dev nD) (t : Fin cfg3.N) :
    (dat3 (F := Ideal) V c).flushed 2 t
      = ((cfg3.win 2).blk t).view.read (Elt Ideal) (Cert.Gcn.biasRelu (F := Ideal) (V c main_v55) (V c main_arg5)) := by
  show (cfg3.win 2).cut (grid3.coords t) ((dat3 V c).after 2 t) = _
  rw [after3_2]
  obtain ⟨e00, e01, e10, e20, e21, ht⟩ := blockIdx3 t
  funext j
  obtain ⟨p, q, rfl⟩ : ∃ (p : Fin 5000) (q : Fin 128), j = ix2 p q := ⟨j 0, j 1, eq_ix2 j⟩
  have hp : p.val < 5000 := p.isLt
  have e2 : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  have e0 : ((cfg3.win 0).blk t).view.emb (ix2 p q) = ix2 (⟨t.val * 5000 + p.val, by omega⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have e1 : ((cfg3.win 1).blk t).view.emb (ix1 q) = ix1 q := by
    funext a; apply Fin.ext
    match a with
    | ⟨0, _⟩ => show win3_1.index t (0 : Fin 1) * 128 + 1 * q.val = q.val; omega
  show out3_2 (iblk3 V c 0 t) (iblk3 V c 1 t) (ix2 p q)
      = Cert.Gcn.biasRelu (F := Ideal) (V c main_v55) (V c main_arg5) (((cfg3.win 2).blk t).view.emb (ix2 p q))
  rw [e2, biasRelu_apply]
  refine (rowBlock3_apply (iblk3 V c 0 t) (iblk3 V c 1 t) p q).trans ?_
  have h0 : (iblk3 V c 0 t : Vec Ideal S5000x128 .f32) (ix2 p q)
      = (V c main_v55 : FVec Ideal S50000x128 .f32) (ix2 (⟨t.val * 5000 + p.val, by omega⟩ : Fin 50000) q) := by
    show V c main_v55 (((cfg3.win 0).blk t).view.emb (ix2 p q)) = _
    rw [e0]
  have h1 : (iblk3 V c 1 t : Vec Ideal S128 .f32) (ix1 q) = (V c main_arg5 : FVec Ideal S128 .f32) (ix1 q) := by
    show V c main_arg5 (((cfg3.win 1).blk t).view.emb (ix1 q)) = _
    rw [e1]
  rw [h0, h1]

theorem mem_rows3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v56).slice (win3_2.rect t)).set ↔ _
  rw [View.set_slice_whole, Rect.mem_set_unit]
  exact Iff.rfl

end Br

/-- The same cover for the second round's array. -/
theorem br3 (c : Dev nD) :
    (dat3 (F := Ideal) V c).arrAt 2 cfg3.N = Cert.Gcn.biasRelu (F := Ideal) (V c main_v55) (V c main_arg5) :=
  (dat3 (F := Ideal) V c).arrAt_eq_of_cover 2 _ (fun t _ => Br.flushed3_eq V c t) fun i => by
    have h0 : (i 0).val < 50000 := (i 0).isLt
    have h1 : (i 1).val < 128 := (i 1).isLt
    have hN : cfg3.N = 10 := N_3
    obtain ⟨t, ht⟩ : ∃ t : Fin cfg3.N, t.val = (i 0).val / 5000 := ⟨⟨(i 0).val / 5000, by rw [hN]; omega⟩, rfl⟩
    obtain ⟨-, -, -, e20, e21, -⟩ := Br.blockIdx3 t
    refine ⟨t, flush3_2 t, ?_⟩
    rw [Br.mem_rows3]
    intro a
    match a with
    | ⟨0, _⟩ =>
      show win3_2.index t (0 : Fin 2) * 5000 ≤ (i 0).val ∧ (i 0).val < win3_2.index t (0 : Fin 2) * 5000 + 5000
      omega
    | ⟨1, _⟩ =>
      show win3_2.index t (1 : Fin 2) * 128 ≤ (i 1).val ∧ (i 1).val < win3_2.index t (1 : Fin 2) * 128 + 128
      omega

namespace Br

/-! ## The third round's clamp: the same body on the third round's buffers -/

theorem rowBlock5_apply (x0 : Vec Ideal S5000x128 .f32) (x1 : Vec Ideal S128 .f32) (p : Fin 5000) (q : Fin 128) :
    out5_2 (F := Ideal) x0 x1 (ix2 p q) = max (x0 (ix2 p q) + x1 (ix1 q)) floor0 :=
  rowBlock_apply x0 x1 p q

theorem blockIdx5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 ∧ t.val < 10 :=
  (by decide +kernel : ∀ t : Fin grid5.N, _)

theorem flushed5_eq (c : Dev nD) (t : Fin cfg5.N) :
    (dat5 (F := Ideal) V c).flushed 2 t
      = ((cfg5.win 2).blk t).view.read (Elt Ideal) (Cert.Gcn.biasRelu (F := Ideal) (V c main_v69) (V c main_arg7)) := by
  show (cfg5.win 2).cut (grid5.coords t) ((dat5 V c).after 2 t) = _
  rw [after5_2]
  obtain ⟨e00, e01, e10, e20, e21, ht⟩ := blockIdx5 t
  funext j
  obtain ⟨p, q, rfl⟩ : ∃ (p : Fin 5000) (q : Fin 128), j = ix2 p q := ⟨j 0, j 1, eq_ix2 j⟩
  have hp : p.val < 5000 := p.isLt
  have e2 : ((cfg5.win 2).blk t).view.emb (ix2 p q) = ix2 (⟨t.val * 5000 + p.val, by omega⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 128 + 1 * q.val = q.val; omega
  have e0 : ((cfg5.win 0).blk t).view.emb (ix2 p q) = ix2 (⟨t.val * 5000 + p.val, by omega⟩ : Fin 50000) q := by
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have e1 : ((cfg5.win 1).blk t).view.emb (ix1 q) = ix1 q := by
    funext a; apply Fin.ext
    match a with
    | ⟨0, _⟩ => show win5_1.index t (0 : Fin 1) * 128 + 1 * q.val = q.val; omega
  show out5_2 (iblk5 V c 0 t) (iblk5 V c 1 t) (ix2 p q)
      = Cert.Gcn.biasRelu (F := Ideal) (V c main_v69) (V c main_arg7) (((cfg5.win 2).blk t).view.emb (ix2 p q))
  rw [e2, biasRelu_apply]
  refine (rowBlock5_apply (iblk5 V c 0 t) (iblk5 V c 1 t) p q).trans ?_
  have h0 : (iblk5 V c 0 t : Vec Ideal S5000x128 .f32) (ix2 p q)
      = (V c main_v69 : FVec Ideal S50000x128 .f32) (ix2 (⟨t.val * 5000 + p.val, by omega⟩ : Fin 50000) q) := by
    show V c main_v69 (((cfg5.win 0).blk t).view.emb (ix2 p q)) = _
    rw [e0]
  have h1 : (iblk5 V c 1 t : Vec Ideal S128 .f32) (ix1 q) = (V c main_arg7 : FVec Ideal S128 .f32) (ix1 q) := by
    show V c main_arg7 (((cfg5.win 1).blk t).view.emb (ix1 q)) = _
    rw [e1]
  rw [h0, h1]

theorem mem_rows5 (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v70).slice (win5_2.rect t)).set ↔ _
  rw [View.set_slice_whole, Rect.mem_set_unit]
  exact Iff.rfl

end Br

/-- The same cover for the third round's array. -/
theorem br5 (c : Dev nD) :
    (dat5 (F := Ideal) V c).arrAt 2 cfg5.N = Cert.Gcn.biasRelu (F := Ideal) (V c main_v69) (V c main_arg7) :=
  (dat5 (F := Ideal) V c).arrAt_eq_of_cover 2 _ (fun t _ => Br.flushed5_eq V c t) fun i => by
    have h0 : (i 0).val < 50000 := (i 0).isLt
    have h1 : (i 1).val < 128 := (i 1).isLt
    have hN : cfg5.N = 10 := N_5
    obtain ⟨t, ht⟩ : ∃ t : Fin cfg5.N, t.val = (i 0).val / 5000 := ⟨⟨(i 0).val / 5000, by rw [hN]; omega⟩, rfl⟩
    obtain ⟨-, -, -, e20, e21, -⟩ := Br.blockIdx5 t
    refine ⟨t, flush5_2 t, ?_⟩
    rw [Br.mem_rows5]
    intro a
    match a with
    | ⟨0, _⟩ =>
      show win5_2.index t (0 : Fin 2) * 5000 ≤ (i 0).val ∧ (i 0).val < win5_2.index t (0 : Fin 2) * 5000 + 5000
      omega
    | ⟨1, _⟩ =>
      show win5_2.index t (1 : Fin 2) * 128 ≤ (i 1).val ∧ (i 1).val < win5_2.index t (1 : Fin 2) * 128 + 128
      omega

end Cert.Gcn.Kernel

end
-- ==== Proof.PoolValue.lean ====
/-
  The last stage of the tiled program, read as a value. Its grid has 13 points; point t sees rows 4096 t … 4096 t + 4095 of
  the padded node rows and of the padded graph words, and one [512,128] block that is carried across all points. The first
  point stores zeros in that block; every point then adds to it, per graph g and column d, the sum over its 4096 rows of
  (1 if the row's graph word is g, else 0) times the row's entry: the product of the transposed indicator block with the
  row block. Extended-real addition is commutative and associative, so after the last point the block holds, per (g, d),
  the one sum over all 53248 rows; the block is the whole result array and is written back once, at the last point.
-/
import proofs.«406955_j40956808135086_1_alg».proof.Proof.Gen.KernelIdeal.Frame
import proofs.«406955_j40956808135086_1_alg».proof.Proof.Spec
import proofs.«406955_j40956808135086_1_alg».proof.Proof.KernelHost
import Idealize.ShloMosaic.Lib.ValueIdx
import Idealize.ShloMosaic.Lib.Pipeline.Value
import Idealize.ShloMosaic.PureOps.Ideal.Laws
set_option maxRecDepth 16384

noncomputable section

namespace Cert.Gcn.Kernel

open Idealize.ShloMosaic Idealize.ShloMosaic.TcCoe Idealize.SL.Sem
open Cert.KernelIdeal Cert.KernelIdeal.Gen

open Idealize.ShloMosaic.ValueIdx

variable {F : FTy → Type} [FloatOps F]

/-- The zero offsets of a whole rank-2 block, and of a whole rank-1 block. -/
theorem hz2 : (![0, 0] : Fin 2 → Nat) = fun _ => 0 := funext fun a => by fin_cases a <;> rfl
theorem hz1 : (![0] : Fin 1 → Nat) = fun _ => 0 := funext fun a => by fin_cases a <;> rfl

/-- At an accumulating point the carried block, holding `xo`, is left at the update of `xo` by the point's block of graph
    words `x1` and block of rows `x0`: one store over the whole block, its operands read whole. -/
theorem out_B (c : Dev nD) (i : grid6.Coords) (a1 : Memref sig .tc .vmem S4096x128 .f32) (h1 : a1.IsWhole)
    (a2 : Memref sig .tc .vmem S4096 .i32) (h2 : a2.IsWhole) (a3 : Memref sig .tc .vmem S512x128 .f32) (h3 : a3.IsWhole)
    (hc : ¬cond6_0 i) (x0 : Vec F S4096x128 .f32) (x1 : Vec F S4096 .i32) (xo : Vec F S512x128 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz2]
  simp only [View.readAt_eq_ld, h1.read_unread, h2.read_unread, h3.read_unread, View.ld_unit_zero (S := S4096x128) hz2,
    View.ld_unit_zero (S := S512x128) hz2, View.ld_unit_zero (S := S4096) hz1]

/-- At the first point the carried block is first set to zeros and then updated: the update reads the zeros back. -/
theorem out_A (c : Dev nD) (i : grid6.Coords) (a1 : Memref sig .tc .vmem S4096x128 .f32) (h1 : a1.IsWhole)
    (a2 : Memref sig .tc .vmem S4096 .i32) (h2 : a2.IsWhole) (a3 : Memref sig .tc .vmem S512x128 .f32) (h3 : a3.IsWhole)
    (hc : cond6_0 i) (x0 : Vec F S4096x128 .f32) (x1 : Vec F S4096 .i32) :
    out6_A_2 c i a1 h1 a2 h2 a3 h3 hc x0 x1 = k6_pay2 x1 x0 k6_pay1 := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S512x128) hz2, View.readCov_unit_zero (S := S512x128) _ hz2]
  simp only [View.readAt_eq_ld, h1.read_unread, h2.read_unread, View.ld_unit_zero (S := S4096x128) hz2,
    View.ld_unit_zero (S := S512x128) hz2, View.ld_unit_zero (S := S4096) hz1]

/-- The graph words stood up as a column: entry (i, 0) is word i. -/
theorem col_apply (x1 : IVec S4096 32) (i : Fin 4096) (z : Fin 1) :
    shapeCast S4096x1 x1 shapeCasts_S4096_S4096x1 (ix2 i z) = x1 (ix1 i) := by
  refine shapeCast_apply x1 _ (ix2 i z) (ix1 i) ?_
  rw [Shape.rowMajor_val_one, Shape.rowMajor_val_two]
  show i.val = i.val * 1 + z.val
  omega

/-- The column spread along the rows: entry (i, g) is word i. -/
theorem spread_apply (x1 : IVec S4096 32) (i : Fin 4096) (g : Fin 512) :
    broadcastTo S4096x512 (shapeCast S4096x1 x1 shapeCasts_S4096_S4096x1) broadcasts_S4096x1_S4096x512 (ix2 i g) = x1 (ix1 i) := by
  refine (broadcastTo_apply _ broadcasts_S4096x1_S4096x512 (ix2 i g) (ix2 i (0 : Fin 1)) (fun a => ?_)).trans (col_apply x1 i 0)
  match a with
  | ⟨0, _⟩ => show i.val = if (4096 : Nat) = 1 then 0 else i.val; rw [if_neg (by decide)]
  | ⟨1, _⟩ => show (0 : Nat) = if (1 : Nat) = 1 then 0 else g.val; rw [if_pos rfl]

/-- A one-bit word widened and read as a signed integer is 1 or 0. -/
theorem bit_cast (a b : BitVec 32) :
    ((((IntOp.cmpi .eq a b).setWidth 32).toInt : ℝ) : EReal) = if a = b then 1 else 0 := by
  by_cases h : a = b
  · rw [if_pos h, h]
    have : IntOp.cmpi .eq b b = 1#1 := by simp [IntOp.cmpi]
    rw [this]; norm_num
  · rw [if_neg h]
    have : IntOp.cmpi .eq a b = 0#1 := by
      have hb : (a == b) = false := beq_eq_false_iff_ne.mpr h
      simp [IntOp.cmpi, hb]
    rw [this]; norm_num

/-- The indicator block at an entry: 1 where row i's word is the graph number g. -/
theorem hot_apply (x1 : IVec S4096 32) (i : Fin 4096) (g : Fin 512) :
    (truncf .bf16 (sitofp .f32 (extui 32 (cmpi .eq (broadcastTo S4096x512 (shapeCast S4096x1 (shapeCast S4096 x1 shapeCasts_S4096_S4096) shapeCasts_S4096_S4096x1) broadcasts_S4096x1_S4096x512) (iota .tc S4096x512 32 [1] iota_S4096x512_d1_w32)) natLt_1_32)) bitsLt_bf16_f32 : FVec Ideal S4096x512 .bf16) (ix2 i g)
      = oneHot (x1 (ix1 i)) g.val := by
  rw [shapeCast_self]
  show ((((IntOp.cmpi .eq (broadcastTo S4096x512 (shapeCast S4096x1 x1 shapeCasts_S4096_S4096x1) broadcasts_S4096x1_S4096x512 (ix2 i g)) (iota .tc S4096x512 32 [1] iota_S4096x512_d1_w32 (ix2 i g))).setWidth 32).toInt : ℝ) : EReal) = _
  rw [spread_apply, iota_single_apply, bit_cast]
  rfl

/-- The product contracts axis 0 of both operands: at result entry (g, d) and contraction index k the indicator block is
    read at (k, g) and the row block at (k, d). The four coordinates: -/
theorem lhs_pool_0 (j : S512x128.Idx) (q : dot_S4096x512_S4096x128_S512x128_0_0_1_1_n_n.contr.Idx) :
    (dot_S4096x512_S4096x128_S512x128_0_0_1_1_n_n.lhsIdx j q 0).val = (q ⟨0, by decide⟩).val :=
  dot_S4096x512_S4096x128_S512x128_0_0_1_1_n_n.lhsIdx_val_of_single rfl j q
theorem lhs_pool_1 (j : S512x128.Idx) (q : dot_S4096x512_S4096x128_S512x128_0_0_1_1_n_n.contr.Idx) :
    (dot_S4096x512_S4096x128_S512x128_0_0_1_1_n_n.lhsIdx j q 1).val = (j 0).val := by
  unfold DotDims.lhsIdx
  rw [dif_neg (show ¬(1 : Fin S4096x512.rank) ∈ dot_S4096x512_S4096x128_S512x128_0_0_1_1_n_n.lhsBatch by decide), dif_pos (show (1 : Fin S4096x512.rank) ∈ dot_S4096x512_S4096x128_S512x128_0_0_1_1_n_n.lhsNonContracting by decide)]
  rfl
theorem rhs_pool_0 (j : S512x128.Idx) (q : dot_S4096x512_S4096x128_S512x128_0_0_1_1_n_n.contr.Idx) :
    (dot_S4096x512_S4096x128_S512x128_0_0_1_1_n_n.rhsIdx j q 0).val = (q ⟨0, by decide⟩).val :=
  dot_S4096x512_S4096x128_S512x128_0_0_1_1_n_n.rhsIdx_val_of_single rfl j q
theorem rhs_pool_1 (j : S512x128.Idx) (q : dot_S4096x512_S4096x128_S512x128_0_0_1_1_n_n.contr.Idx) :
    (dot_S4096x512_S4096x128_S512x128_0_0_1_1_n_n.rhsIdx j q 1).val = (j 1).val := by
  unfold DotDims.rhsIdx
  rw [dif_neg (show ¬(1 : Fin S4096x128.rank) ∈ dot_S4096x512_S4096x128_S512x128_0_0_1_1_n_n.rhsBatch by decide), dif_pos (show (1 : Fin S4096x128.rank) ∈ dot_S4096x512_S4096x128_S512x128_0_0_1_1_n_n.rhsNonContracting by decide)]
  rfl

/-- The product of the transposed indicator block with the row block, into zero, at an entry:
    the sum over the block's rows of indicator times entry. -/
theorem prod_apply (A : FVec Ideal S4096x512 .bf16) (B : FVec Ideal S4096x128 .bf16) (g : Fin 512) (d : Fin 128) :
    matmul dot_S4096x512_S4096x128_S512x128_0_0_1_1_n_n none A B (constant (F := Ideal) S512x128 .f32 0x00000000#32) (ix2 g d)
      = ∑ i : Fin 4096, A (ix2 i g) * B (ix2 i d) := by
  simp only [matmul]
  rw [Ideal.matmul_constant_zero_apply, ← Equiv.sum_comp (ValueIdx.contrEquiv1 dot_S4096x512_S4096x128_S512x128_0_0_1_1_n_n 4096 rfl rfl).symm]
  refine Finset.sum_congr rfl fun k _ => ?_
  have hk := ValueIdx.contrEquiv1_symm_val dot_S4096x512_S4096x128_S512x128_0_0_1_1_n_n 4096 rfl rfl k
  have el : dot_S4096x512_S4096x128_S512x128_0_0_1_1_n_n.lhsIdx (ix2 g d) ((ValueIdx.contrEquiv1 dot_S4096x512_S4096x128_S512x128_0_0_1_1_n_n 4096 rfl rfl).symm k) = ix2 k g := funext fun a => Fin.ext (by
    match a with
    | ⟨0, _⟩ => exact (lhs_pool_0 _ _).trans hk
    | ⟨1, _⟩ => exact lhs_pool_1 _ _)
  have er : dot_S4096x512_S4096x128_S512x128_0_0_1_1_n_n.rhsIdx (ix2 g d) ((ValueIdx.contrEquiv1 dot_S4096x512_S4096x128_S512x128_0_0_1_1_n_n 4096 rfl rfl).symm k) = ix2 k d := funext fun a => Fin.ext (by
    match a with
    | ⟨0, _⟩ => exact (rhs_pool_0 _ _).trans hk
    | ⟨1, _⟩ => exact rhs_pool_1 _ _)
  rw [el, er]

/-- What one point adds: the carried block plus, per graph and column, the sum over the block's 4096 rows of
    (the row's word is that graph) times the row's entry. -/
theorem pay2_apply (x1 : IVec S4096 32) (x0 : FVec Ideal S4096x128 .f32) (acc : FVec Ideal S512x128 .f32) (g : Fin 512) (d : Fin 128) :
    k6_pay2 (F := Ideal) x1 x0 acc (ix2 g d) = acc (ix2 g d) + ∑ i : Fin 4096, oneHot (x1 (ix1 i)) g.val * x0 (ix2 i d) := by
  unfold k6_pay2
  refine (addf_apply _ _ (ix2 g d)).trans ?_
  rw [shapeCast_self, prod_apply]
  refine congrArg (acc (ix2 g d) + ·) (Finset.sum_congr rfl fun i _ => ?_)
  rw [hot_apply, shapeCast_self]
  rfl

/-- The zero block at an entry. -/
theorem pay1_apply (g : Fin 512) (d : Fin 128) : (k6_pay1 (F := Ideal)) (ix2 g d) = 0 :=
  Ideal.ofBits_zero_f32

variable (V : (c : Dev nD) → (b : Ref sig .tc) → Buf (Elt Ideal) ((c : Thread nD τ).loc b))

/-- Point t's block of 4096 rows, -/
abbrev hblk (c : Dev nD) (t : Fin cfg6.N) : FVec Ideal S4096x128 .f32 := iblk6 V c 0 t
/-- and its block of 4096 graph words. -/
abbrev bblk (c : Dev nD) (t : Fin cfg6.N) : IVec S4096 32 := iblk6 V c 1 t

/-- What point s adds at graph g, column d: over its 4096 rows, (the row's word is g) times the row's entry
    (nothing past the grid). -/
def addend (c : Dev nD) (s : ℕ) (g : Fin 512) (d : Fin 128) : EReal :=
  if hs : s < cfg6.N then ∑ i : Fin 4096, oneHot (bblk V c ⟨s, hs⟩ (ix1 i)) g.val * hblk V c ⟨s, hs⟩ (ix2 i d) else 0

/-- After point n the carried block holds the sum of the addends of points 0 … n: the first point resets to
    zero and adds, every later one adds to what the point before left. -/
theorem outsAt_apply (c : Dev nD) : ∀ (n : ℕ) (h : n < cfg6.N) (g : Fin 512) (d : Fin 128),
    outsAt6 V c n h (ix2 g d) = ∑ s ∈ Finset.range (n + 1), addend V c s g d
  | 0, h, g, d => by
    rw [outsAt6_A V c ⟨0, h⟩ (Nat.zero_mod 13)]
    refine (congrFun (out_A (F := Ideal) c (grid6.coords ⟨0, h⟩) (ms6_0 ⟨0, h⟩) (hs6_0 ⟨0, h⟩) (ms6_1 ⟨0, h⟩) (hs6_1 ⟨0, h⟩)
      (ms6_2 ⟨0, h⟩) (hs6_2 ⟨0, h⟩) ((hcond6_0 ⟨0, h⟩).mpr (Nat.zero_mod 13)) (hblk V c ⟨0, h⟩) (bblk V c ⟨0, h⟩)) (ix2 g d)).trans ?_
    rw [pay2_apply, pay1_apply, zero_add, Finset.sum_range_one, addend, dif_pos h]
  | n + 1, h, g, d => by
    have hN : cfg6.N = 13 := N_6
    have hB : ¬(⟨n + 1, h⟩ : Fin cfg6.N).val % 13 = 0 := by dsimp only; omega
    rw [outsAt6_B V c ⟨n + 1, h⟩ hB]
    dsimp only
    refine (congrFun (out_B (F := Ideal) c (grid6.coords ⟨n + 1, h⟩) (ms6_0 ⟨n + 1, h⟩) (hs6_0 ⟨n + 1, h⟩) (ms6_1 ⟨n + 1, h⟩) (hs6_1 ⟨n + 1, h⟩)
      (ms6_2 ⟨n + 1, h⟩) (hs6_2 ⟨n + 1, h⟩) (fun hc => hB ((hcond6_0 ⟨n + 1, h⟩).mp hc)) (hblk V c ⟨n + 1, h⟩) (bblk V c ⟨n + 1, h⟩)
      (outsAt6 V c n (Nat.lt_of_succ_lt h))) (ix2 g d)).trans ?_
    rw [pay2_apply, outsAt_apply c n (Nat.lt_of_succ_lt h) g d, Finset.sum_range_succ _ (n + 1)]
    congr 1
    rw [addend, dif_pos h]

/-- The padded rows and the padded graph words, as the last stage finds them. -/
abbrev harr (c : Dev nD) : FVec Ideal S53248x128 .f32 := V c main_v71
abbrev barr (c : Dev nD) : IVec S53248 32 := V c main_v72

/-- Point t's blocks are the t-th blocks of 4096 rows, all 128 columns. -/
theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val :=
  (by decide +kernel : ∀ t : Fin grid6.N, win6_1.index t 0 = t.val)

/-- Entry (i, d) of point t's row block is entry (4096 t + i, d) of the padded rows. -/
theorem hblk_apply (c : Dev nD) (t : Fin cfg6.N) (i : Fin 4096) (d : Fin 128) (r : Fin 53248) (hr : r.val = t.val * 4096 + i.val) :
    hblk V c t (ix2 i d) = harr V c (ix2 r d) := by
  show ((cfg6.win 0).blk t).view.read (Elt Ideal) (V c (Pipeline.arrRef spec6 0)) (ix2 i d) = _
  rw [View.read_apply]
  show V c main_v71 _ = V c main_v71 _
  congr 1
  funext a
  apply Fin.ext
  match a with
  | ⟨0, _⟩ => show win6_0.index t 0 * 4096 + 1 * i.val = r.val; rw [(idx6_0 t).1, hr]; omega
  | ⟨1, _⟩ => show win6_0.index t 1 * 128 + 1 * d.val = d.val; rw [(idx6_0 t).2]; omega

/-- Entry i of point t's block of graph words is word 4096 t + i. -/
theorem bblk_apply (c : Dev nD) (t : Fin cfg6.N) (i : Fin 4096) (r : Fin 53248) (hr : r.val = t.val * 4096 + i.val) :
    bblk V c t (ix1 i) = barr V c (ix1 r) := by
  show ((cfg6.win 1).blk t).view.read (Elt Ideal) (V c (Pipeline.arrRef spec6 1)) (ix1 i) = _
  rw [View.read_apply]
  show V c main_v72 _ = V c main_v72 _
  congr 1
  funext a
  apply Fin.ext
  match a with
  | ⟨0, _⟩ => show win6_1.index t 0 * 4096 + 1 * i.val = r.val; rw [idx6_1 t, hr]; omega

/-- Row 4096 s + i of the padded arrays is row i of block s: the 53248 rows are 13 blocks of 4096. -/
def rowEquiv : Fin 13 × Fin 4096 ≃ Fin 53248 := finProdFinEquiv.trans (finCongr (by norm_num))

/-- The row number of entry i of block s. -/
theorem rowEquiv_val (s : Fin 13) (i : Fin 4096) : (rowEquiv (s, i)).val = s.val * 4096 + i.val := by
  show i.val + 4096 * s.val = _
  omega

/-- The thirteen points' addends together are the one sum over all 53248 rows. -/
theorem sum_points (c : Dev nD) (g : Fin 512) (d : Fin 128) :
    ∑ s ∈ Finset.range 13, addend V c s g d = ∑ r : Fin 53248, oneHot (barr V c (ix1 r)) g.val * harr V c (ix2 r d) := by
  have hN : cfg6.N = 13 := N_6
  rw [Finset.sum_range (fun s => addend V c s g d),
    ← Equiv.sum_comp rowEquiv (fun r => oneHot (barr V c (ix1 r)) g.val * harr V c (ix2 r d)), Fintype.sum_prod_type]
  refine Finset.sum_congr rfl fun s _ => ?_
  have hs : s.val < cfg6.N := by rw [hN]; exact s.isLt
  rw [addend, dif_pos hs]
  refine Finset.sum_congr rfl fun i _ => ?_
  rw [hblk_apply V c ⟨s.val, hs⟩ i d (rowEquiv (s, i)) (rowEquiv_val s i),
    bblk_apply V c ⟨s.val, hs⟩ i (rowEquiv (s, i)) (rowEquiv_val s i)]

/-- After the last point the carried block is the sum over all padded rows. -/
theorem outs_last (c : Dev nD) (n : ℕ) (h : n < cfg6.N) (hn : n = 12) :
    outsAt6 V c n h = tiledPool (V c main_v71) (V c main_v72) := by
  subst hn
  funext j
  obtain ⟨g, d, rfl⟩ : ∃ g d, j = ix2 g d := ⟨j 0, j 1, eq_ix2 j⟩
  rw [outsAt_apply V c 12 h g d]
  exact sum_points V c g d

/-- The one write-back, at the last point, writes that block: block (0, 0) of the [512,128] result is the whole of it. -/
theorem flushed_eq (c : Dev nD) (t : Fin cfg6.N) (hf : (cfg6.win 2).flush t = true) :
    (dat6 V c).flushed 2 t = ((cfg6.win 2).blk t).view.read (Elt Ideal) (tiledPool (V c main_v71) (V c main_v72)) := by
  have hN : cfg6.N = 13 := N_6
  have h12 : t.val = 12 := by have := (flush6_2 t).mp hf; have := t.isLt; omega
  obtain rfl : t = t6_12 := Fin.ext h12
  show (cfg6.win 2).cut (grid6.coords t6_12) ((dat6 V c).after 2 t6_12) = _
  rw [after6_2, outs_last V c t6_12.val t6_12.isLt rfl]
  have hz' : (fun a => win6_2.index t6_12 a * main_v73.ty.shape.size a) = fun _ => 0 := funext fun a => by fin_cases a <;> decide
  exact (Memref.read_access_unit_zero (Elt Ideal) main_v73 hz' (fun a => by rw [congrFun hz' a]; simp) (tiledPool (V c main_v71) (V c main_v72))).symm

theorem pool6 (c : Dev nD) :
    (dat6 (F := Ideal) V c).arrAt 2 cfg6.N = tiledPool (V c main_v71) (V c main_v72) :=
  (dat6 V c).arrAt_eq_of_cover 2 (tiledPool (V c main_v71) (V c main_v72)) (flushed_eq V c) fun i =>
    ⟨t6_12, (flush6_2 t6_12).mpr rfl, by
      show i ∈ ((View.whole main_v73).slice (win6_2.rect t6_12)).set
      rw [View.set_slice_whole, Rect.mem_set_unit]
      intro a
      have h0 : (i 0 : Nat) < 512 := (i 0).isLt
      have h1 : (i 1 : Nat) < 128 := (i 1).isLt
      match a with
      | ⟨0, _⟩ => show win6_2.index t6_12 0 * win6_2.size 0 ≤ (i 0 : Nat) ∧ (i 0 : Nat) < win6_2.index t6_12 0 * win6_2.size 0 + win6_2.xsize (grid6.coords t6_12) 0
                  rw [show win6_2.index t6_12 0 * win6_2.size 0 = 0 from by decide +kernel, show win6_2.xsize (grid6.coords t6_12) 0 = 512 from by decide +kernel]; omega
      | ⟨1, _⟩ => show win6_2.index t6_12 1 * win6_2.size 1 ≤ (i 1 : Nat) ∧ (i 1 : Nat) < win6_2.index t6_12 1 * win6_2.size 1 + win6_2.xsize (grid6.coords t6_12) 1
                  rw [show win6_2.index t6_12 1 * win6_2.size 1 = 0 from by decide +kernel, show win6_2.xsize (grid6.coords t6_12) 1 = 128 from by decide +kernel]; omega⟩

end Cert.Gcn.Kernel

end
-- ==== Proof.PoolScatter.lean ====
/-
  Where a scatter's update lands, and the pooled sum. A scatter over graph numbers sends update row j to the row its
  graph word names, read as a signed integer and not clamped: inside 0 … 511 it lands there (same column), outside it
  is dropped. So the scatter-add of the node rows is, at (g, d), the sum of the entries (r, d) over the nodes r whose
  word is g. The tiled program's sum over 53248 padded rows of (indicator of "word = g") × entry is the same number: a
  padding row is a zero row whose word −1 names no graph, and on a node row the indicator is 1 exactly when the word is g.
-/
import proofs.«406955_j40956808135086_1_alg».proof.Proof.KernelHost
import proofs.«406955_j40956808135086_1_alg».proof.Proof.Spec
import Idealize.ShloMosaic.Lib.ValueIdx
import Idealize.ShloMosaic.Lib.Pipeline.Value
import Idealize.ShloMosaic.Lib.KernelVsHost
import Idealize.ShloMosaic.Lib.StableHlo.Predicate

set_option maxRecDepth 16384

noncomputable section

namespace Cert.Gcn.Kernel

open Idealize.ShloMosaic Idealize.ShloMosaic.ValueIdx

/-- The graph-number column read at a row is the graph number of that row. -/
theorem batchCol_apply (b : IVec Cert.ReferenceIdeal.S50000 32) (k : Cert.ReferenceIdeal.S50000x1.Idx) :
    broadcastInDim Cert.ReferenceIdeal.S50000x1 ![0] Cert.ReferenceIdeal.Gen.bcast_S50000_S50000x1_0 b k
      = b (ix1 (⟨(k 0).val, idx2_lt0 k⟩ : Fin 50000)) := by
  refine broadcastInDim_apply _ _ b k _ (fun a => match a with
    | ⟨0, _⟩ => by show (k 0).val = if (50000 : Nat) = 1 then 0 else (k 0).val; rw [if_neg (by decide)])

/-- The graph numbers as a column: the scatters' index array. -/
abbrev batchCol (b : IVec Cert.ReferenceIdeal.S50000 32) : IVec Cert.ReferenceIdeal.S50000x1 32 :=
  broadcastInDim Cert.ReferenceIdeal.S50000x1 ![0] Cert.ReferenceIdeal.Gen.bcast_S50000_S50000x1_0 b

/-! ### The count scatter, axis by axis -/

/-- The count scatter. -/
abbrev cntDims := Cert.ReferenceIdeal.scatter_S512_S50000x1_S50000_n_0_0_1
/-- The row scatter. -/
abbrev poolDims := Cert.ReferenceIdeal.scatter_S512x128_S50000x1_S50000x128_1_0_0_1

theorem cnt_mem0 : (0 : Fin Cert.ReferenceIdeal.S512.rank) ∈ cntDims.scatterDimsToOperandDims := by
  show (0 : Fin 1) ∈ [0]; decide

theorem cnt_siIdx (j : Cert.ReferenceIdeal.S50000.Idx) (c : Fin cntDims.scatterDimsToOperandDims.length) :
    (cntDims.siIdx j c 0).val = (j 0).val := rfl

theorem cnt_window (j : Cert.ReferenceIdeal.S50000.Idx) : cntDims.window j 0 = 0 := rfl

/-- The start of position `j` on the only axis is its graph number, read signed. -/
theorem cnt_start (b : IVec Cert.ReferenceIdeal.S50000 32) (j : Cert.ReferenceIdeal.S50000.Idx) :
    cntDims.start j (broadcastInDim Cert.ReferenceIdeal.S50000x1 ![0] Cert.ReferenceIdeal.Gen.bcast_S50000_S50000x1_0 b) 0 = (b j).toInt := by
  unfold ScatterDims.start
  rw [dif_pos cnt_mem0, batchCol_apply]
  refine congrArg (fun k => (b k).toInt) ?_
  exact (congrArg ix1 (Fin.ext rfl)).trans (eq_ix1 j).symm

/-! ### The row scatter, axis by axis -/

theorem pool_mem0 : (0 : Fin Cert.ReferenceIdeal.S512x128.rank) ∈ poolDims.scatterDimsToOperandDims := by
  show (0 : Fin 2) ∈ [0]; decide
theorem pool_nmem1 : ¬ (1 : Fin Cert.ReferenceIdeal.S512x128.rank) ∈ poolDims.scatterDimsToOperandDims := by
  show ¬ (1 : Fin 2) ∈ [0]; decide

theorem pool_siIdx (j : Cert.ReferenceIdeal.S50000x128.Idx) (c : Fin poolDims.scatterDimsToOperandDims.length) :
    (poolDims.siIdx j c 0).val = (j 0).val := rfl

theorem pool_window0 (j : Cert.ReferenceIdeal.S50000x128.Idx) : poolDims.window j 0 = 0 := rfl
theorem pool_window1 (j : Cert.ReferenceIdeal.S50000x128.Idx) : poolDims.window j 1 = (j 1).val := rfl

/-- The start of update row `j` on the graph axis is the graph number of node `j 0`, read signed. -/
theorem pool_start0 (b : IVec Cert.ReferenceIdeal.S50000 32) (j : Cert.ReferenceIdeal.S50000x128.Idx) :
    poolDims.start j (broadcastInDim Cert.ReferenceIdeal.S50000x1 ![0] Cert.ReferenceIdeal.Gen.bcast_S50000_S50000x1_0 b) 0
      = (b (ix1 (⟨(j 0).val, idx2_lt0 j⟩ : Fin 50000))).toInt := by
  unfold ScatterDims.start
  rw [dif_pos pool_mem0, batchCol_apply]
  refine congrArg (fun k => (b k).toInt) ?_
  exact congrArg ix1 (Fin.ext rfl)

/-- The start on the column axis is 0. -/
theorem pool_start1 (b : IVec Cert.ReferenceIdeal.S50000 32) (j : Cert.ReferenceIdeal.S50000x128.Idx) :
    poolDims.start j (broadcastInDim Cert.ReferenceIdeal.S50000x1 ![0] Cert.ReferenceIdeal.Gen.bcast_S50000_S50000x1_0 b) 1 = 0 := by
  unfold ScatterDims.start
  rw [dif_neg pool_nmem1]

/-- Where an update row lands in the per-graph sum: row `j 0` of the node rows goes to graph row `(b (j 0)).toInt`, same column, when that
    number is in 0 … 511, and nowhere otherwise. -/
theorem resultIdx_pool (b : IVec Cert.ReferenceIdeal.S50000 32) (j : Cert.ReferenceIdeal.S50000x128.Idx) (i : Cert.ReferenceIdeal.S512x128.Idx) :
    Cert.ReferenceIdeal.scatter_S512x128_S50000x1_S50000x128_1_0_0_1.resultIdx? j
        (broadcastInDim Cert.ReferenceIdeal.S50000x1 ![0] Cert.ReferenceIdeal.Gen.bcast_S50000_S50000x1_0 b) = some i
      ↔ (b (ix1 (⟨(j 0).val, idx2_lt0 j⟩ : Fin 50000))).toInt = ((i 0).val : Int) ∧ (j 1).val = (i 1).val := by
  have hs0 := pool_start0 b j
  have hs1 := pool_start1 b j
  have hw0 := pool_window0 j
  have hw1 := pool_window1 j
  have hi0 : (i 0).val < 512 := (i 0).isLt
  have hi1 : (i 1).val < 128 := (i 1).isLt
  have hj1 : (j 1).val < 128 := (j 1).isLt
  have two : ∀ a : Fin Cert.ReferenceIdeal.S512x128.rank, a = 0 ∨ a = 1 := fun a => by
    have := a.isLt; change a.val < 2 at this
    rcases Nat.lt_or_ge a.val 1 with h | h
    · left; apply Fin.ext; show a.val = 0; omega
    · right; apply Fin.ext; show a.val = 1; omega
  unfold ScatterDims.resultIdx?
  split
  · rename_i h
    have h0 := h 0
    have h1 := h 1
    rw [Option.some.injEq]
    constructor
    · intro e
      have e0 : (poolDims.start j (batchCol b) 0 + (poolDims.window j 0 : Int)).toNat = (i 0).val := congrArg Fin.val (congrFun e 0)
      have e1 : (poolDims.start j (batchCol b) 1 + (poolDims.window j 1 : Int)).toNat = (i 1).val := congrArg Fin.val (congrFun e 1)
      rw [hs0, hw0] at e0 h0
      rw [hs1, hw1] at e1 h1
      omega
    · intro e
      funext a
      rcases two a with ha | ha
      · rw [ha]
        apply Fin.ext
        show (poolDims.start j (batchCol b) 0 + (poolDims.window j 0 : Int)).toNat = (i 0).val
        rw [hs0, hw0]; omega
      · rw [ha]
        apply Fin.ext
        show (poolDims.start j (batchCol b) 1 + (poolDims.window j 1 : Int)).toNat = (i 1).val
        rw [hs1, hw1]; omega
  · rename_i h
    constructor
    · intro e; cases e
    · intro e
      exfalso; apply h
      intro a
      rcases two a with ha | ha
      · rw [ha, hs0, hw0]
        show 0 ≤ _ ∧ _ < ((512 : Nat) : Int)
        omega
      · rw [ha, hs1, hw1]
        show 0 ≤ _ ∧ _ < ((128 : Nat) : Int)
        omega

/-- The same for the per-graph count: position `j` goes to graph `(b j).toInt` when that is in 0 … 511. -/
theorem resultIdx_cnt (b : IVec Cert.ReferenceIdeal.S50000 32) (j : Cert.ReferenceIdeal.S50000.Idx) (i : Cert.ReferenceIdeal.S512.Idx) :
    Cert.ReferenceIdeal.scatter_S512_S50000x1_S50000_n_0_0_1.resultIdx? j
        (broadcastInDim Cert.ReferenceIdeal.S50000x1 ![0] Cert.ReferenceIdeal.Gen.bcast_S50000_S50000x1_0 b) = some i
      ↔ (b j).toInt = ((i 0).val : Int) := by
  have hs := cnt_start b j
  have hw := cnt_window j
  have hi : (i 0).val < 512 := (i 0).isLt
  have one : ∀ a : Fin Cert.ReferenceIdeal.S512.rank, a = 0 := fun a => by
    have := a.isLt; apply Fin.ext; show a.val = 0; change a.val < 1 at this; omega
  unfold ScatterDims.resultIdx?
  split
  · rename_i h
    have h0 := h 0
    rw [Option.some.injEq]
    constructor
    · intro e
      have e0 : (cntDims.start j (batchCol b) 0 + (cntDims.window j 0 : Int)).toNat = (i 0).val := congrArg Fin.val (congrFun e 0)
      rw [hs, hw] at e0 h0
      omega
    · intro e
      funext a
      rw [one a]
      apply Fin.ext
      show (cntDims.start j (batchCol b) 0 + (cntDims.window j 0 : Int)).toNat = (i 0).val
      rw [hs, hw]; omega
  · rename_i h
    constructor
    · intro e; cases e
    · intro e
      exfalso; apply h
      intro a
      rw [one a, hs, hw]
      show 0 ≤ _ ∧ _ < ((512 : Nat) : Int)
      omega

/-! ### The padded arrays read at an index -/

/-- A padded row is the node's row below 50000 and a zero row from there on. -/
theorem padRows_apply (h : FVec Ideal Cert.KernelIdeal.S50000x128 .f32) (r : Fin 53248) (c : Fin 128) :
    padRows (F := Ideal) h (ix2 r c) = if hr : r.val < 50000 then h (ix2 (⟨r.val, hr⟩ : Fin 50000) c) else 0 := by
  unfold padRows
  by_cases hr : r.val < 50000
  · rw [dif_pos hr]
    refine pad_apply_of_inside _ _ _ h _ _ _ (ix2 r c) (ix2 (⟨r.val, hr⟩ : Fin 50000) c) (fun a => match a with
      | ⟨0, _⟩ => by show r.val = 0 + r.val * (0 + 1); omega
      | ⟨1, _⟩ => by show c.val = 0 + c.val * (0 + 1); omega)
  · rw [dif_neg hr]
    refine (pad_apply_of_not_inside _ _ _ h _ _ _ (ix2 r c) (0 : Fin 2) (by
      show ¬((0 : Nat) ≤ r.val ∧ (r.val - 0) % (0 + 1) = 0 ∧ (r.val - 0) / (0 + 1) < 50000)
      omega)).trans ?_
    show (((0#32 : BitVec 32).toInt : ℝ) : EReal) = 0
    rw [show (0#32 : BitVec 32).toInt = 0 from rfl, Int.cast_zero, EReal.coe_zero]

/-- A padded graph word is the node's below 50000 and −1 from there on. -/
theorem padBatch_apply (b : IVec Cert.KernelIdeal.S50000 32) (r : Fin 53248) :
    padBatch b (ix1 r) = if hr : r.val < 50000 then b (ix1 (⟨r.val, hr⟩ : Fin 50000)) else 4294967295#32 := by
  unfold padBatch
  by_cases hr : r.val < 50000
  · rw [dif_pos hr]
    refine pad_apply_of_inside _ _ _ b _ _ _ (ix1 r) (ix1 (⟨r.val, hr⟩ : Fin 50000)) (fun a => match a with
      | ⟨0, _⟩ => by show r.val = 0 + r.val * (0 + 1); omega)
  · rw [dif_neg hr]
    exact pad_apply_of_not_inside _ _ _ b _ _ _ (ix1 r) (0 : Fin 1) (by
      show ¬((0 : Nat) ≤ r.val ∧ (r.val - 0) % (0 + 1) = 0 ∧ (r.val - 0) / (0 + 1) < 50000)
      omega)

/-- A sum over `N` positions of a function that vanishes from position `n` on is the sum over the first `n`. -/
theorem sum_fin_dite_lt {M : Type*} [AddCommMonoid M] {n N : Nat} (hn : n ≤ N) (f : Fin n → M) :
    ∑ r : Fin N, (if hr : r.val < n then f ⟨r.val, hr⟩ else 0) = ∑ r : Fin n, f r := by
  obtain ⟨k, rfl⟩ := Nat.exists_eq_add_of_le hn
  rw [Fin.sum_univ_add]
  have h1 : ∀ i : Fin n, (if hr : (Fin.castAdd k i).val < n then f ⟨(Fin.castAdd k i).val, hr⟩ else 0) = f i := fun i => by
    rw [dif_pos (by show i.val < n; exact i.isLt)]; rfl
  have h2 : ∀ i : Fin k, (if hr : (Fin.natAdd n i).val < n then f ⟨(Fin.natAdd n i).val, hr⟩ else 0) = 0 := fun i => by
    rw [dif_neg (by show ¬ (n + i.val < n); omega)]
  simp only [h1, h2, Finset.sum_const_zero, add_zero]

/-! ### The indicator -/

/-- A word is the word of graph number `g < 512` exactly when it reads `g` signed. -/
theorem word_eq_ofNat_iff (w : BitVec 32) (g : Nat) (hg : g < 512) : w = BitVec.ofNat 32 g ↔ w.toInt = (g : Int) := by
  have hs := StableHlo.Predicate.toInt_ofNat_small g (by omega)
  constructor
  · intro e; rw [e, hs]
  · intro e; exact BitVec.eq_of_toInt_eq (by rw [e, hs])

/-- The indicator times an entry is the entry where the word names the graph and 0 elsewhere. -/
theorem oneHot_mul (w : BitVec 32) (g : Nat) (x : EReal) : oneHot w g * x = if w = BitVec.ofNat 32 g then x else 0 := by
  unfold oneHot
  by_cases hw : w = BitVec.ofNat 32 g
  · rw [if_pos hw, if_pos hw, one_mul]
  · rw [if_neg hw, if_neg hw, zero_mul]

/-- The array of zeros the scatter starts from. -/
theorem zeros_apply (i : Cert.ReferenceIdeal.S512x128.Idx) :
    broadcastInDim Cert.ReferenceIdeal.S512x128 ![] Cert.ReferenceIdeal.Gen.bcast_S_S512x128
        (constant (F := Ideal) Cert.ReferenceIdeal.S_ FTy.f32 0x00000000#32) i = 0 :=
  (broadcastInDim_apply _ Cert.ReferenceIdeal.Gen.bcast_S_S512x128 _ i ix0 (fun a => a.elim0)).trans Ideal.ofBits_zero_f32

/-- The tiled sum over the padded rows IS the scatter-add of the node rows by graph number: a padding row has graph word −1 (no graph) and a
    zero row; a node row's indicator is 1 exactly at the graph its word names. -/
theorem tiledPool_pad (h : FVec Ideal Cert.KernelIdeal.S50000x128 .f32) (b : IVec Cert.KernelIdeal.S50000 32) :
    tiledPool (padRows (F := Ideal) h) (padBatch b) = Cert.Gcn.poolSum (F := Ideal) h b := by
  funext i
  have hg : (i 0).val < 512 := (i 0).isLt
  -- both sides are the sum over the nodes of the entries of the rows whose graph number is `i 0`
  have hL : tiledPool (padRows (F := Ideal) h) (padBatch b) i
      = ∑ r : Fin 50000, (if (b (ix1 r)).toInt = ((i 0).val : Int) then h (ix2 r (⟨(i 1).val, idx2_lt1 i⟩ : Fin 128)) else 0) := by
    unfold tiledPool
    rw [← sum_fin_dite_lt (n := 50000) (N := 53248) (by omega)]
    refine Finset.sum_congr rfl (fun r _ => ?_)
    rw [padRows_apply, padBatch_apply]
    by_cases hr : r.val < 50000
    · rw [dif_pos hr, dif_pos hr, dif_pos hr, oneHot_mul]
      exact if_congr (word_eq_ofNat_iff _ _ hg) rfl rfl
    · rw [dif_neg hr, dif_neg hr, dif_neg hr, mul_zero]
  have hR : Cert.Gcn.poolSum (F := Ideal) h b i
      = ∑ r : Fin 50000, (if (b (ix1 r)).toInt = ((i 0).val : Int) then h (ix2 r (⟨(i 1).val, idx2_lt1 i⟩ : Fin 128)) else 0) := by
    unfold Cert.Gcn.poolSum Host.scatterAdd
    rw [Ideal.hostScatterAdd_def]
    unfold Ideal.hostScatterAdd
    rw [zeros_apply, zero_add, Finset.sum_filter, sum_idx2]
    refine Finset.sum_congr rfl (fun r _ => ?_)
    have hterm : ∀ c : Fin 128,
        (if poolDims.resultIdx? (ix2 r c) (batchCol b) = some i then h (ix2 r c) else 0)
          = if c = (⟨(i 1).val, idx2_lt1 i⟩ : Fin 128) then
              (if (b (ix1 r)).toInt = ((i 0).val : Int) then h (ix2 r c) else 0) else 0 := fun c => by
      have hp := resultIdx_pool b (ix2 r c) i
      by_cases hc : c = (⟨(i 1).val, idx2_lt1 i⟩ : Fin 128)
      · rw [if_pos hc]
        exact if_congr ⟨fun e => (hp.1 e).1, fun e => hp.2 ⟨e, congrArg Fin.val hc⟩⟩ rfl rfl
      · rw [if_neg hc, if_neg (fun e => hc (Fin.ext (hp.1 e).2))]
    exact (Finset.sum_congr rfl (fun c _ => hterm c)).trans
      ((Finset.sum_ite_eq' Finset.univ _ _).trans (if_pos (Finset.mem_univ _)))
  rw [hL, hR]

end Cert.Gcn.Kernel

end
-- ==== Proof.LibCount.lean ====
/-
  COUNTING WITH INTEGER SUMS. A host program counts the set bits of a mask by widening each bit to a 32-bit word
  (0 or 1) and summing the words with a reduction by word addition from 0. This file says what such a sum is: along
  the second axis of an [n × m] array of 0/1 words it is, at row i, the word of the NUMBER of columns whose word is 1;
  over the one axis of an [n] array it is the word of the number of set positions. Nothing wraps, the number being at
  most the extent. Then what the program does with a count word c (below 2³¹): the signed test c > 0 is the bit of
  0 < c, the signed maximum with 1 is the word of max c 1, and the conversion to a float, at the instance where floats
  are extended reals, is the real number c (resp. max c 1). All at any extents.
-/
import Idealize.ShloMosaic.Lib.StableHlo.Predicate
import Idealize.ShloMosaic.Lib.ValueIdx
import Idealize.ShloMosaic.PureOps.Ideal
import Mathlib.Data.EReal.Basic
import Mathlib.Algebra.BigOperators.Group.Finset.Basic

noncomputable section

namespace Cert.LibCount

open Idealize.ShloMosaic Idealize.ShloMosaic.ValueIdx

/-- A bit widened to 32 bits is the word 1 when set and the word 0 otherwise. -/
theorem setWidth_ofBool (b : Bool) : (BitVec.ofBool b).setWidth 32 = if b then 1#32 else 0#32 := by
  cases b <;> rfl

/-- The same on a one-bit word: widened, it is the word 1 when it is 1 and the word 0 otherwise. -/
theorem setWidth_bit (b : BitVec 1) : b.setWidth 32 = if b = 1#1 then 1#32 else 0#32 := by
  rcases BitVec.eq_zero_or_eq_one b with rfl | rfl <;> rfl

/-- A count of positions among n is at most n: below 2³¹ when n is. -/
theorem count_lt {n : Nat} (hn : n < 2 ^ 31) (P : Fin n → Prop) [DecidablePred P] :
    (Finset.univ.filter P).card < 2 ^ 31 :=
  lt_of_le_of_lt (Finset.card_le_univ _) (by simpa using hn)

/-- The one coordinate of a rank-1 index, as an equivalence. -/
def idxEquiv1 {n : Nat} : (⟨1, ![n]⟩ : Shape).Idx ≃ Fin n where
  toFun j := j 0
  invFun := ix1
  left_inv j := (eq_ix1 j).symm
  right_inv _ := rfl

/-- The one-bit mask of a decidable relation on (row, column). -/
def maskOf {n m : Nat} (P : Fin n → Fin m → Prop) [dP : ∀ p q, Decidable (P p q)] : IVec ⟨2, ![n, m]⟩ 1 :=
  fun j => @ite (BitVec 1) (P (j 0) (j 1)) (dP (j 0) (j 1)) 1#1 0#1

theorem maskOf_ix2 {n m : Nat} (P : Fin n → Fin m → Prop) [∀ p q, Decidable (P p q)] (a : Fin n) (b : Fin m) :
    maskOf P (ix2 a b) = if P a b then 1#1 else 0#1 := rfl

theorem maskOf_ij {n m : Nat} (P : Fin n → Fin m → Prop) [∀ p q, Decidable (P p q)] (a : Fin n) (b : Fin m) :
    maskOf P (StableHlo.Predicate.ij a b) = if P a b then 1#1 else 0#1 := rfl

/-- ALONG THE SECOND AXIS: the sum by word addition, from 0, of an [n × m] array whose word at (p, q) is 1 when
    P p q and 0 otherwise is, at row i, the word of the number of columns q with P i q. -/
theorem reduce_count_cols {n m : Nat} (hm : m < 2 ^ 32) (x : IVec ⟨2, ![n, m]⟩ 32) {u : Shape} (init : IVec u 32)
    (P : Fin n → Fin m → Prop) [∀ p q, Decidable (P p q)]
    (hx : ∀ p q, x (ix2 p q) = if P p q then 1#32 else 0#32) (hinit : ∀ k, init k = 0#32)
    (h : (⟨2, ![n, m]⟩ : Shape).ReducesTo [1] ⟨1, ![n]⟩) (hu : 0 < u.numel) (i : Fin n) :
    Host.reduce IntOp.addi x init h hu (ix1 i)
      = BitVec.ofNat 32 (Finset.univ.filter (fun q : Fin m => P i q)).card := by
  -- the array is the one-bit mask of P, widened
  have ex : x = extui 32 (maskOf P) (by decide) := by
    funext j
    obtain ⟨a, b, rfl⟩ : ∃ a b, j = ix2 a b := ⟨_, _, eq_ix2 j⟩
    rw [hx]
    show _ = (maskOf P (ix2 a b)).setWidth 32
    rw [maskOf_ix2]
    by_cases hp : P a b
    · rw [if_pos hp, if_pos hp]; rfl
    · rw [if_neg hp, if_neg hp]; rfl
  have ei : init = constantI u 32 0#32 := funext hinit
  have hc := StableHlo.Predicate.toNat_reduce_count_cols hm (maskOf P) (by decide) h hu (ix1 i)
  rw [← ex, ← ei] at hc
  -- the mask's bit at (i, q) is set exactly when P i q
  have hcard : (Finset.univ.filter (fun q : Fin m =>
        maskOf P (StableHlo.Predicate.ij ((ix1 i : (⟨1, ![n]⟩ : Shape).Idx) 0) q) = 1#1)).card
      = (Finset.univ.filter (fun q : Fin m => P i q)).card := by
    congr 1
    ext q
    simp only [Finset.mem_filter, Finset.mem_univ, true_and]
    show maskOf P (StableHlo.Predicate.ij i q) = 1#1 ↔ P i q
    rw [maskOf_ij]
    by_cases hp : P i q
    · rw [if_pos hp]; exact ⟨fun _ => hp, fun _ => rfl⟩
    · rw [if_neg hp]; exact ⟨fun e => absurd e (by decide), fun e => absurd e hp⟩
  rw [hcard] at hc
  rw [← hc]
  simp

/-- OVER THE ONE AXIS: the sum by word addition, from 0, of an [n] array whose word at p is 1 when P p and 0
    otherwise is the word of the number of positions p with P p. -/
theorem reduce_count_all {n : Nat} (hn : n < 2 ^ 32) (x : IVec ⟨1, ![n]⟩ 32) {u : Shape} (init : IVec u 32)
    (P : Fin n → Prop) [DecidablePred P]
    (hx : ∀ p, x (ix1 p) = if P p then 1#32 else 0#32) (hinit : ∀ k, init k = 0#32)
    (h : (⟨1, ![n]⟩ : Shape).ReducesTo [0] ⟨0, ![]⟩) (hu : 0 < u.numel) (j : (⟨0, ![]⟩ : Shape).Idx) :
    Host.reduce IntOp.addi x init h hu j = BitVec.ofNat 32 (Finset.univ.filter P).card := by
  classical
  rw [Host.reduce_eq_fold, hinit]
  -- every position reduces into the one result
  have hall : (Finset.univ.filter fun i : (⟨1, ![n]⟩ : Shape).Idx => h.drop i = j) = Finset.univ := by
    ext i
    simp only [Finset.mem_filter, Finset.mem_univ, true_and, iff_true]
    exact funext fun a => a.elim0
  rw [hall]
  -- the values sum to the count
  have hsum : ∑ i : (⟨1, ![n]⟩ : Shape).Idx, (x i).toNat = (Finset.univ.filter P).card := by
    rw [Finset.card_filter]
    refine Fintype.sum_equiv idxEquiv1 _ _ (fun i => ?_)
    obtain ⟨a, rfl⟩ : ∃ a, i = ix1 a := ⟨_, eq_ix1 i⟩
    rw [hx]
    show _ = if P a then 1 else 0
    split <;> rfl
  have hle : (Finset.univ.filter P).card < 2 ^ 32 :=
    lt_of_le_of_lt (Finset.card_le_univ _) (by simpa using hn)
  apply BitVec.eq_of_toNat_eq
  rw [StableHlo.Predicate.toNat_fold_addi _ _ (by rw [hsum]; exact hle), hsum, BitVec.toNat_ofNat,
    Nat.mod_eq_of_lt hle]

/-! ## A count word, read -/

/-- The signed test "c > 0" of the word of a number c below 2³¹ is the bit of 0 < c. -/
theorem sgt_zero (c : Nat) (hc : c < 2 ^ 31) :
    IntOp.cmpi .sgt (BitVec.ofNat 32 c) 0#32 = BitVec.ofBool (decide (0 < c)) := by
  unfold IntOp.cmpi
  congr 1
  simp only [BitVec.slt, StableHlo.Predicate.toInt_ofNat_small c hc, show (0#32 : BitVec 32).toInt = 0 from by decide]
  exact decide_eq_decide.mpr Int.natCast_pos

/-- The signed maximum with 1 of the word of a number c below 2³¹ is the word of max c 1. -/
theorem maxsi_one (c : Nat) (hc : c < 2 ^ 31) :
    IntOp.maxsi (BitVec.ofNat 32 c) 1#32 = BitVec.ofNat 32 (max c 1) := by
  unfold IntOp.maxsi
  simp only [BitVec.slt, StableHlo.Predicate.toInt_ofNat_small c hc, show (1#32 : BitVec 32).toInt = 1 from by decide]
  by_cases h1 : 1 < c
  · rw [if_pos (by simpa using h1), max_eq_left (by omega)]
  · rw [if_neg (by simpa using h1), max_eq_right (by omega)]

/-- The word of a number c below 2³¹ converts (signed) to the real number c. -/
theorem sitofp_ofNat (c : Nat) (hc : c < 2 ^ 31) :
    FloatOps.sitofp (F := Ideal) .f32 (BitVec.ofNat 32 c) = (((c : ℕ) : ℝ) : EReal) := by
  show ((((BitVec.ofNat 32 c).toInt : ℤ) : ℝ) : EReal) = _
  rw [StableHlo.Predicate.toInt_ofNat_small c hc, Int.cast_natCast]

/-- The word of max c 1 converts to the real number max c 1. -/
theorem sitofp_maxsi_one (c : Nat) (hc : c < 2 ^ 31) :
    FloatOps.sitofp (F := Ideal) .f32 (IntOp.maxsi (BitVec.ofNat 32 c) 1#32) = ((max (c : ℝ) 1 : ℝ) : EReal) := by
  rw [maxsi_one c hc, sitofp_ofNat (max c 1) (by rw [Nat.max_def]; split <;> omega), Nat.cast_max, Nat.cast_one]

end Cert.LibCount

end
-- ==== Proof.LibScatterFold.lean ====
/-
  A SCATTER WHOSE BODY ADDS, READ AT AN INDEX. A scatter walks the update positions in row-major order and, for each one whose result
  index lies inside the operand, replaces the element there by the body applied to that element and the update. When the body is the
  addition of a commutative monoid the walk's order does not matter: at every result index the outcome is the operand's entry plus the
  sum of the updates that land there, an update landing outside contributing nothing. First the walk over ANY list of positions, by
  induction on the list; then the scatter itself, the list of all positions turned into a sum over all update indices. At any shapes,
  any scatter dimension numbers, any index width.
-/
import Idealize.ShloMosaic.PureOps.ShapeOps
import Mathlib.Algebra.BigOperators.Fin

namespace Cert.LibScatterFold

open Idealize.ShloMosaic

variable {α : Type} [AddCommMonoid α] {s si u : Shape} {w : Nat}

/-- The scatter's left fold over ANY list of update positions, with addition as the body: at a result index it is the starting value plus
    the sum, along the list, of the updates whose result index is that one (the others contribute zero). -/
theorem scatter_foldl_apply (d : ScatterDims s si u) (idx : IVec si w) (upd : u.Idx → α) (l : List (Fin u.numel))
    (x : s.Idx → α) (i : s.Idx) :
    (l.foldl (fun r n =>
      match d.resultIdx? (u.rowMajor.symm n) idx with
      | some i0 => fun i' => if i' = i0 then r i0 + upd (u.rowMajor.symm n) else r i'
      | none => r) x) i
    = x i + (l.map (fun n => if d.resultIdx? (u.rowMajor.symm n) idx = some i then upd (u.rowMajor.symm n) else 0)).sum := by
  induction l generalizing x with
  | nil => simp
  | cons n l ih =>
    rw [List.foldl_cons, ih, List.map_cons, List.sum_cons, ← add_assoc]
    congr 1
    cases hr : d.resultIdx? (u.rowMajor.symm n) idx with
    | none => simp
    | some i0 =>
      by_cases h : i = i0
      · subst h; simp
      · simp [h, Ne.symm h]

/-- A scatter whose body is the addition of a commutative monoid is, at each result index, the operand's element plus the sum of the updates
    whose result index is that element: the order of the updates does not matter. -/
theorem scatter_add_apply (d : ScatterDims s si u) (x : s.Idx → α) (idx : IVec si w) (upd : u.Idx → α) (i : s.Idx) :
    Host.scatter d (fun a b => a + b) x idx upd i
      = x i + ∑ j ∈ Finset.univ.filter (fun j => d.resultIdx? j idx = some i), upd j := by
  unfold Host.scatter
  refine (scatter_foldl_apply d idx upd _ x i).trans ?_
  rw [← Fin.sum_univ_def, Finset.sum_filter,
    ← Equiv.sum_comp u.rowMajor.symm (fun j => if d.resultIdx? j idx = some i then upd j else 0)]

end Cert.LibScatterFold
-- ==== Proof.Count.lean ====
/-
  The per-graph divisor of the tiled program is the plain program's. A scatter whose body is an addition is, at each result index, the
  operand's element plus the sum of the updates landing there, whatever the order; with ones as updates that sum is the number of
  positions landing there, as a word on the integer side (no wrap: at most 50000 of them) and as a real number on the float side. The
  precondition's last conjunct says no graph number is negative, so the clamp at zero and the count-from-the-end wrap change nothing.
-/
import proofs.«406955_j40956808135086_1_alg».proof.Proof.KernelHost
import proofs.«406955_j40956808135086_1_alg».proof.Proof.Spec
import proofs.«406955_j40956808135086_1_alg».proof.Proof.LibCount
import proofs.«406955_j40956808135086_1_alg».proof.Proof.LibScatterFold
import proofs.«406955_j40956808135086_1_alg».proof.Defs
import proofs.«406955_j40956808135086_1_alg».proof.Proof.Gen.Pre_finite_inputs
import Idealize.ShloMosaic.Lib.ValueIdx
import Idealize.ShloMosaic.Lib.ReduceAll
import Idealize.ShloMosaic.Lib.IdealHost
import Idealize.ShloMosaic.Lib.StableHlo.Predicate
import Mathlib.Algebra.BigOperators.Fin
import Mathlib.Data.BitVec

set_option maxRecDepth 16384

noncomputable section

namespace Cert.Gcn.Kernel

open Idealize.ShloMosaic Idealize.ShloMosaic.ValueIdx Idealize.SL.Sem Idealize.ShloMosaic.TcCoe

/-! ## The precondition's last conjunct -/

instance : Subsingleton Cert.Pre_finite_inputs.S_.Idx := ⟨fun _ _ => funext fun d => d.elim0⟩

/-- A word that passes the signed test "≥ 0" is not negative. -/
theorem nonneg_of_sge_zero (w : BitVec 32) (hw : IntOp.cmpi .sge w 0#32 = 1#1) : 0 ≤ w.toInt := by
  unfold IntOp.cmpi at hw
  rw [StableHlo.Predicate.ofBool_eq_one_iff] at hw
  simpa only [BitVec.sle, decide_eq_true_eq, show (0#32 : BitVec 32).toInt = 0 from by decide] using hw

/-- The precondition's last conjunct, decoded: every graph number is non-negative as a signed word. -/
theorem batch_nonneg_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) (j : Cert.KernelIdeal.S50000.Idx) :
    0 ≤ ((m ((c.tc : Thread Cert.KernelIdeal.nD Cert.KernelIdeal.τ).loc Cert.KernelIdeal.main_arg9) : IVec Cert.KernelIdeal.S50000 32) j).toInt := by
  have h0 := congrFun (h c) ValueIdx.ix0
  unfold Cert.Pre_finite_inputs.fn Cert.Pre_finite_inputs.fn_part1 Cert.Pre_finite_inputs.fn_part2 at h0
  dsimp only at h0
  -- the last conjunct: the test "≥ 0" holds at every position
  have h1 := (IntOp.andi_eq_one.mp h0).2
  have h2 := Host.reduce_andi_all _ _ _ _ ValueIdx.ix0 h1 j
  exact nonneg_of_sge_zero _ h2

/-! ## The count -/

/-- A word 1 added up `n` times is the word of `n`. -/
theorem nsmul_one_word (n : ℕ) : n • (1#32 : BitVec 32) = BitVec.ofNat 32 n := by
  rw [nsmul_eq_mul]
  show (n : BitVec 32) * 1 = _
  rw [mul_one, BitVec.natCast_eq_ofNat]

open Cert.KernelIdeal Cert.KernelIdeal.Gen in
/-- Clamping from below at 0 does nothing to graph numbers that are not negative. -/
theorem clipNonneg_of_nonneg (b : IVec Cert.KernelIdeal.S50000 32) (hb : ∀ j, 0 ≤ (b j).toInt) : clipNonneg b = b := by
  funext j
  show IntOp.maxsi (0#32) (b j) = b j
  unfold IntOp.maxsi
  have h0 : ¬ (b j).slt 0#32 = true := by
    simp only [BitVec.slt, decide_eq_true_eq, not_lt, show (0#32 : BitVec 32).toInt = 0 from by decide]
    exact hb j
  rw [if_neg h0]

open Cert.KernelIdeal Cert.KernelIdeal.Gen in
/-- Counting from the end does nothing to graph numbers that are not negative. -/
theorem wrapGraph_of_nonneg (b : IVec Cert.KernelIdeal.S50000 32) (hb : ∀ j, 0 ≤ (b j).toInt) : wrapGraph b = b := by
  funext j
  show Scalar.select (IntOp.cmpi .slt (b j) 0#32) _ (b j) = b j
  have h0 : IntOp.cmpi .slt (b j) 0#32 ≠ 1 := by
    unfold IntOp.cmpi
    simp only [BitVec.slt, show (0#32 : BitVec 32).toInt = 0 from by decide]
    rw [decide_eq_false (not_lt.mpr (hb j))]
    decide
  unfold Scalar.select
  rw [if_neg h0]

/-- The nodes of graph `g`: the positions whose graph number scatters to `g`. -/
def nodesOf (b : IVec Cert.KernelIdeal.S50000 32) (g : Cert.KernelIdeal.S512.Idx) : Finset Cert.KernelIdeal.S50000.Idx :=
  Finset.univ.filter (fun j => Cert.KernelIdeal.scatter_S512_S50000x1_S50000_n_0_0_1.resultIdx? j
    (broadcastInDim Cert.KernelIdeal.S50000x1 ![0] Cert.KernelIdeal.Gen.bcast_S50000_S50000x1_0 b) = some g)

theorem nodesOf_card_lt (b : IVec Cert.KernelIdeal.S50000 32) (g : Cert.KernelIdeal.S512.Idx) : (nodesOf b g).card < 2 ^ 31 := by
  refine lt_of_le_of_lt (Finset.card_le_univ _) ?_
  rw [Shape.card_idx]
  decide

open Cert.KernelIdeal Cert.KernelIdeal.Gen in
/-- The integer scatter of ones, with no negative graph number: at graph `g` the word of the number of its nodes. -/
theorem cntWords_apply (b : IVec Cert.KernelIdeal.S50000 32) (hb : ∀ j, 0 ≤ (b j).toInt) (g : Cert.KernelIdeal.S512.Idx) :
    cntWords b g = BitVec.ofNat 32 (nodesOf b g).card := by
  unfold cntWords
  rw [clipNonneg_of_nonneg b hb, wrapGraph_of_nonneg b hb]
  have hadd : (IntOp.addi : BitVec 32 → BitVec 32 → BitVec 32) = fun a b => a + b := rfl
  rw [hadd, Cert.LibScatterFold.scatter_add_apply (α := BitVec 32)]
  show (0#32 : BitVec 32) + ∑ j ∈ nodesOf b g, (1#32 : BitVec 32) = _
  rw [Finset.sum_const, BitVec.zero_add, nsmul_one_word]

/-- The float scatter-add of ones from zero: at graph `g` the number of its nodes, as a real number. -/
theorem cntFloat_apply (b : IVec Cert.KernelIdeal.S50000 32) (g : Cert.KernelIdeal.S512.Idx) :
    (Host.scatterAdd Cert.ReferenceIdeal.scatter_S512_S50000x1_S50000_n_0_0_1
        (broadcastInDim Cert.ReferenceIdeal.S512 ![] Cert.ReferenceIdeal.Gen.bcast_S_S512 (constant Cert.ReferenceIdeal.S_ .f32 0x00000000#32))
        (broadcastInDim Cert.ReferenceIdeal.S50000x1 ![0] Cert.ReferenceIdeal.Gen.bcast_S50000_S50000x1_0 b)
        (broadcastInDim Cert.ReferenceIdeal.S50000 ![] Cert.ReferenceIdeal.Gen.bcast_S_S50000 (constant Cert.ReferenceIdeal.S_ .f32 0x3F800000#32))
      : FVec Ideal Cert.ReferenceIdeal.S512 .f32) g
      = ((((nodesOf b g).card : ℕ) : ℝ) : EReal) := by
  show (Ideal.ofBits .f32 0x00000000#32 : EReal) + ∑ _j ∈ nodesOf b g, (Ideal.ofBits .f32 0x3F800000#32 : EReal) = _
  rw [Ideal.ofBits_zero_f32, Ideal.ofBits_one_f32, zero_add, Finset.sum_const, nsmul_one]
  rfl

/-- With no negative graph number the tiled program's divisor is the plain program's: the integer scatter of ones counts, per graph, the nodes
    whose word is that graph (nothing wraps, there are 50000 nodes), the float scatter-add of ones is the same number, and the clamp at one and
    the spreading along rows are the same operations on both sides. -/
theorem cntK_eq (b : IVec Cert.KernelIdeal.S50000 32) (hb : ∀ j, 0 ≤ (b j).toInt) :
    cntK (F := Ideal) b = Cert.Gcn.spreadRows (Cert.Gcn.cntMax (F := Ideal) b) := by
  have hkey : (sitofp .f32 (cntWords b) : FVec Ideal Cert.KernelIdeal.S512 .f32)
      = Host.scatterAdd Cert.ReferenceIdeal.scatter_S512_S50000x1_S50000_n_0_0_1
        (broadcastInDim Cert.ReferenceIdeal.S512 ![] Cert.ReferenceIdeal.Gen.bcast_S_S512 (constant Cert.ReferenceIdeal.S_ .f32 0x00000000#32))
        (broadcastInDim Cert.ReferenceIdeal.S50000x1 ![0] Cert.ReferenceIdeal.Gen.bcast_S50000_S50000x1_0 b)
        (broadcastInDim Cert.ReferenceIdeal.S50000 ![] Cert.ReferenceIdeal.Gen.bcast_S_S50000 (constant Cert.ReferenceIdeal.S_ .f32 0x3F800000#32)) := by
    funext g
    show FloatOps.sitofp (F := Ideal) .f32 (cntWords b g) = _
    rw [cntWords_apply b hb g, Cert.LibCount.sitofp_ofNat _ (nodesOf_card_lt b g), cntFloat_apply]
  unfold cntK Cert.Gcn.spreadRows Cert.Gcn.cntMax
  rw [hkey]

end Cert.Gcn.Kernel

end
-- ==== Proof.Walk.lean ====
/-
  What is not written stays. @main runs as host stretches and kernel stages in turn; the contents of the buffers at
  each boundary are a fold from the launch memory. A host stretch changes only the buffers its operations write, a
  stage only its output array (its input arrays end as they were entered). So an argument array, at the boundary where
  a stage or a stretch reads it, still holds its launch contents, and the three arrays derived from the edge list
  before the first stage (sources, targets, per-edge coefficient) are still there when each round reads them.
-/
import proofs.«406955_j40956808135086_1_alg».proof.Proof.Gen.KernelIdeal.Frame

set_option maxRecDepth 16384

noncomputable section

namespace Cert.Gcn.Kernel

open Idealize.ShloMosaic Idealize.ShloMosaic.TcCoe Idealize.SL.Sem
open Cert.KernelIdeal Cert.KernelIdeal.Gen

/-- A stretch of host operations none of which writes the buffer leaves it as it was: the list of operations is
    unfolded, each operation's written buffer is read off, and each is a different buffer. -/
macro "skip_ops " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg) (c : Dev nD)

/-! ## The arguments, at the boundary where each is read, are as launched -/

theorem W1_arg0 : W1 m ρ c (Proc.devRef .tc main_arg0) = m ((c : Thread nD τ).loc main_arg0) :=
  calc W1 m ρ c (Proc.devRef .tc main_arg0)
    _ = W0 m ρ c (Proc.devRef .tc main_arg0) := by skip_ops hostOps0
    _ = m ((c : Thread nD τ).loc main_arg0) := rfl
theorem W1_arg2 : W1 m ρ c (Proc.devRef .tc main_arg2) = m ((c : Thread nD τ).loc main_arg2) :=
  calc W1 m ρ c (Proc.devRef .tc main_arg2)
    _ = W0 m ρ c (Proc.devRef .tc main_arg2) := by skip_ops hostOps0
    _ = m ((c : Thread nD τ).loc main_arg2) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := by skip_ops hostOps1
    _ = W1 m ρ c (Proc.devRef .tc main_arg3) := W2_of_ne m ρ c main_arg3 (by decide)
    _ = W0 m ρ c (Proc.devRef .tc main_arg3) := by skip_ops hostOps0
    _ = m ((c : Thread nD τ).loc main_arg3) := rfl
theorem W4_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by skip_ops hostOps1
    _ = W1 m ρ c (Proc.devRef .tc main_arg4) := W2_of_ne m ρ c main_arg4 (by decide)
    _ = W0 m ρ c (Proc.devRef .tc main_arg4) := by skip_ops hostOps0
    _ = m ((c : Thread nD τ).loc main_arg4) := rfl
theorem W6_arg5 : W6 m ρ c (Proc.devRef .tc main_arg5) = m ((c : Thread nD τ).loc main_arg5) :=
  calc W6 m ρ c (Proc.devRef .tc main_arg5)
    _ = W5 m ρ c (Proc.devRef .tc main_arg5) := by skip_ops hostOps3
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by skip_ops hostOps1
    _ = W1 m ρ c (Proc.devRef .tc main_arg5) := W2_of_ne m ρ c main_arg5 (by decide)
    _ = W0 m ρ c (Proc.devRef .tc main_arg5) := by skip_ops hostOps0
    _ = m ((c : Thread nD τ).loc main_arg5) := rfl
theorem W7_arg6 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by skip_ops hostOps3
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by skip_ops hostOps1
    _ = W1 m ρ c (Proc.devRef .tc main_arg6) := W2_of_ne m ρ c main_arg6 (by decide)
    _ = W0 m ρ c (Proc.devRef .tc main_arg6) := by skip_ops hostOps0
    _ = m ((c : Thread nD τ).loc main_arg6) := rfl
theorem W9_arg7 : W9 m ρ c (Proc.devRef .tc main_arg7) = m ((c : Thread nD τ).loc main_arg7) :=
  calc W9 m ρ c (Proc.devRef .tc main_arg7)
    _ = W8 m ρ c (Proc.devRef .tc main_arg7) := by skip_ops hostOps5
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by skip_ops hostOps3
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by skip_ops hostOps1
    _ = W1 m ρ c (Proc.devRef .tc main_arg7) := W2_of_ne m ρ c main_arg7 (by decide)
    _ = W0 m ρ c (Proc.devRef .tc main_arg7) := by skip_ops hostOps0
    _ = m ((c : Thread nD τ).loc main_arg7) := rfl
theorem W10_arg9 : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := by skip_ops hostOps5
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := by skip_ops hostOps3
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by skip_ops hostOps1
    _ = W1 m ρ c (Proc.devRef .tc main_arg9) := W2_of_ne m ρ c main_arg9 (by decide)
    _ = W0 m ρ c (Proc.devRef .tc main_arg9) := by skip_ops hostOps0
    _ = m ((c : Thread nD τ).loc main_arg9) := rfl
theorem W15_arg9 : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := by skip_ops hostOps6_3
    _ = W12 m ρ c (Proc.devRef .tc main_arg9) := by skip_ops hostOps6_2
    _ = W11 m ρ c (Proc.devRef .tc main_arg9) := by skip_ops hostOps6_1
    _ = W10 m ρ c (Proc.devRef .tc main_arg9) := by skip_ops hostOps6
    _ = m ((c : Thread nD τ).loc main_arg9) := W10_arg9 m ρ c

/-! ## The edge list's derived arrays (sources, targets, per-edge coefficient), computed before the first stage, are still there when each round reads them -/

theorem W2_v5 : W2 m ρ c (Proc.devRef .tc main_v5) = W1 m ρ c (Proc.devRef .tc main_v5) := W2_of_ne m ρ c main_v5 (by decide)
theorem W2_v6 : W2 m ρ c (Proc.devRef .tc main_v6) = W1 m ρ c (Proc.devRef .tc main_v6) := W2_of_ne m ρ c main_v6 (by decide)
theorem W2_v28 : W2 m ρ c (Proc.devRef .tc main_v28) = W1 m ρ c (Proc.devRef .tc main_v28) := W2_of_ne m ρ c main_v28 (by decide)
theorem W5_v5 : W5 m ρ c (Proc.devRef .tc main_v5) = W1 m ρ c (Proc.devRef .tc main_v5) :=
  calc W5 m ρ c (Proc.devRef .tc main_v5)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := by skip_ops hostOps1
    _ = W1 m ρ c (Proc.devRef .tc main_v5) := W2_v5 m ρ c
theorem W5_v6 : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by skip_ops hostOps1
    _ = W1 m ρ c (Proc.devRef .tc main_v6) := W2_v6 m ρ c
theorem W5_v28 : W5 m ρ c (Proc.devRef .tc main_v28) = W1 m ρ c (Proc.devRef .tc main_v28) :=
  calc W5 m ρ c (Proc.devRef .tc main_v28)
    _ = W4 m ρ c (Proc.devRef .tc main_v28) := W5_of_ne m ρ c main_v28 (by decide)
    _ = W3 m ρ c (Proc.devRef .tc main_v28) := W4_of_ne m ρ c main_v28 (by decide)
    _ = W2 m ρ c (Proc.devRef .tc main_v28) := by skip_ops hostOps1
    _ = W1 m ρ c (Proc.devRef .tc main_v28) := W2_v28 m ρ c
theorem W8_v5 : W8 m ρ c (Proc.devRef .tc main_v5) = W1 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := W7_of_ne m ρ c main_v5 (by decide)
    _ = W5 m ρ c (Proc.devRef .tc main_v5) := by skip_ops hostOps3
    _ = W1 m ρ c (Proc.devRef .tc main_v5) := W5_v5 m ρ c
theorem W8_v6 : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := by skip_ops hostOps3
    _ = W1 m ρ c (Proc.devRef .tc main_v6) := W5_v6 m ρ c
theorem W8_v28 : W8 m ρ c (Proc.devRef .tc main_v28) = W1 m ρ c (Proc.devRef .tc main_v28) :=
  calc W8 m ρ c (Proc.devRef .tc main_v28)
    _ = W7 m ρ c (Proc.devRef .tc main_v28) := W8_of_ne m ρ c main_v28 (by decide)
    _ = W6 m ρ c (Proc.devRef .tc main_v28) := W7_of_ne m ρ c main_v28 (by decide)
    _ = W5 m ρ c (Proc.devRef .tc main_v28) := by skip_ops hostOps3
    _ = W1 m ρ c (Proc.devRef .tc main_v28) := W5_v28 m ρ c

end Cert.Gcn.Kernel

end
-- ==== Proof.KernelValue.lean ====
import proofs.«406955_j40956808135086_1_alg».proof.Proof.Gen.KernelIdeal.Frame
import proofs.«406955_j40956808135086_1_alg».proof.Proof.Spec
import proofs.«406955_j40956808135086_1_alg».proof.Proof.KernelHost
import proofs.«406955_j40956808135086_1_alg».proof.Proof.LinValue
import proofs.«406955_j40956808135086_1_alg».proof.Proof.BrValue
import proofs.«406955_j40956808135086_1_alg».proof.Proof.PoolValue
import proofs.«406955_j40956808135086_1_alg».proof.Proof.PoolScatter
import proofs.«406955_j40956808135086_1_alg».proof.Proof.Count
import proofs.«406955_j40956808135086_1_alg».proof.Proof.Walk
import Idealize.ShloMosaic.Lib.StableHlo.Run
set_option maxRecDepth 16384

noncomputable section

namespace Cert.Gcn.Kernel

open Idealize.ShloMosaic Idealize.ShloMosaic.TcCoe Idealize.SL.Sem
open Cert.KernelIdeal Cert.KernelIdeal.Gen

open Idealize.ShloMosaic.StableHlo

/-!
  The tiled program's result, boundary by boundary. Between the stages the buffers' contents are the host operations'
  results over the contents at the stretch's start; a stage's output array is its whole-array function of its input
  arrays; a buffer nobody writes keeps its contents. Read from the launch to the return this composes to the network
  of Spec.lean, except for the last stage's sum and the node count, which are the tiled program's own and are shown
  equal to the plain ones separately.
-/

variable (m : (ℓ : Loc nD τ sig) → Buf (Elt Ideal) ℓ) (ρ : Dev nD → PrngReg) (c : Dev nD)

/-! ## Before the first stage: the edge list's derived arrays -/

theorem pre_v5 : ((W1 m ρ c (Proc.devRef .tc main_v5)) : IVec S850000 32) = Cert.Gcn.srcOf (m ((c : Thread nD τ).loc main_arg8)) := by
  show StableHlo.after hostOps0 (W0 m ρ c) (Proc.devRef .tc main_v5) = _
  after_results_simp
  rfl

theorem pre_v6 : ((W1 m ρ c (Proc.devRef .tc main_v6)) : IVec S850000 32) = Cert.Gcn.dstOf (m ((c : Thread nD τ).loc main_arg8)) := by
  show StableHlo.after hostOps0 (W0 m ρ c) (Proc.devRef .tc main_v6) = _
  after_results_simp
  rfl

set_option maxHeartbeats 4000000 in
theorem pre_v28 : ((W1 m ρ c (Proc.devRef .tc main_v28)) : FVec Ideal S850000x1 .f32) = Cert.Gcn.coefCol (F := Ideal) (m ((c : Thread nD τ).loc main_arg8)) := by
  show StableHlo.after hostOps0 (W0 m ρ c) (Proc.devRef .tc main_v28) = _
  after_results_simp
  rfl

/-! ## Round 1 -/

/-- A multiplication stage leaves in its output array the product of the entry array's rows with the weight matrix. -/
theorem w2_v29 : ((W2 m ρ c (Proc.devRef .tc main_v29)) : FVec Ideal S50000x128 .f32)
    = Cert.Gcn.linear (F := Ideal) (m ((c : Thread nD τ).loc main_arg0)) (m ((c : Thread nD τ).loc main_arg2)) := by
  refine (W2_arr m ρ c 2).trans ?_
  refine (lin0 (V1 m ρ) c).trans ?_
  show Cert.Gcn.linear (F := Ideal) (W1 m ρ c (Proc.devRef .tc main_arg0)) (W1 m ρ c (Proc.devRef .tc main_arg2)) = Cert.Gcn.linear (F := Ideal) (m ((c : Thread nD τ).loc main_arg0)) (m ((c : Thread nD τ).loc main_arg2))
  rw [W1_arg0, W1_arg2]

set_option maxHeartbeats 4000000 in
/-- Between two stages the host carries each source's row along its edge, scales it and adds up at the targets: the aggregation of Spec.lean. -/
theorem w3_v41 : ((W3 m ρ c (Proc.devRef .tc main_v41)) : FVec Ideal S50000x128 .f32)
    = Cert.Gcn.aggregate (F := Ideal) (m ((c : Thread nD τ).loc main_arg8)) (W2 m ρ c (Proc.devRef .tc main_v29)) := by
  show StableHlo.after hostOps1 (W2 m ρ c) (Proc.devRef .tc main_v41) = _
  after_results_simp
  rw [W2_v5, W2_v6, W2_v28, pre_v5, pre_v6, pre_v28]
  rfl

/-- A bias-and-clamp stage leaves in its output array the clamp of the entry array plus the bias. -/
theorem w4_v42 : ((W4 m ρ c (Proc.devRef .tc main_v42)) : FVec Ideal S50000x128 .f32)
    = Cert.Gcn.biasRelu (F := Ideal) (W3 m ρ c (Proc.devRef .tc main_v41)) (m ((c : Thread nD τ).loc main_arg3)) := by
  refine (W4_arr m ρ c 2).trans ?_
  refine (br1 (V3 m ρ) c).trans ?_
  show Cert.Gcn.biasRelu (F := Ideal) (W3 m ρ c (Proc.devRef .tc main_v41)) (W3 m ρ c (Proc.devRef .tc main_arg3)) = _
  rw [W3_arg3]

/-! ## Round 2 -/

/-- A multiplication stage leaves in its output array the product of the entry array's rows with the weight matrix. -/
theorem w5_v43 : ((W5 m ρ c (Proc.devRef .tc main_v43)) : FVec Ideal S50000x128 .f32)
    = Cert.Gcn.linear (F := Ideal) (W4 m ρ c (Proc.devRef .tc main_v42)) (m ((c : Thread nD τ).loc main_arg4)) := by
  refine (W5_arr m ρ c 2).trans ?_
  refine (lin2 (V4 m ρ) c).trans ?_
  show Cert.Gcn.linear (F := Ideal) (W4 m ρ c (Proc.devRef .tc main_v42)) (W4 m ρ c (Proc.devRef .tc main_arg4)) = _
  rw [W4_arg4]

set_option maxHeartbeats 4000000 in
/-- Between two stages the host carries each source's row along its edge, scales it and adds up at the targets: the aggregation of Spec.lean. -/
theorem w6_v55 : ((W6 m ρ c (Proc.devRef .tc main_v55)) : FVec Ideal S50000x128 .f32)
    = Cert.Gcn.aggregate (F := Ideal) (m ((c : Thread nD τ).loc main_arg8)) (W5 m ρ c (Proc.devRef .tc main_v43)) := by
  show StableHlo.after hostOps3 (W5 m ρ c) (Proc.devRef .tc main_v55) = _
  after_results_simp
  rw [W5_v5, W5_v6, W5_v28, pre_v5, pre_v6, pre_v28]
  rfl

/-- A bias-and-clamp stage leaves in its output array the clamp of the entry array plus the bias. -/
theorem w7_v56 : ((W7 m ρ c (Proc.devRef .tc main_v56)) : FVec Ideal S50000x128 .f32)
    = Cert.Gcn.biasRelu (F := Ideal) (W6 m ρ c (Proc.devRef .tc main_v55)) (m ((c : Thread nD τ).loc main_arg5)) := by
  refine (W7_arr m ρ c 2).trans ?_
  refine (br3 (V6 m ρ) c).trans ?_
  show Cert.Gcn.biasRelu (F := Ideal) (W6 m ρ c (Proc.devRef .tc main_v55)) (W6 m ρ c (Proc.devRef .tc main_arg5)) = _
  rw [W6_arg5]

/-! ## Round 3 -/

/-- A multiplication stage leaves in its output array the product of the entry array's rows with the weight matrix. -/
theorem w8_v57 : ((W8 m ρ c (Proc.devRef .tc main_v57)) : FVec Ideal S50000x128 .f32)
    = Cert.Gcn.linear (F := Ideal) (W7 m ρ c (Proc.devRef .tc main_v56)) (m ((c : Thread nD τ).loc main_arg6)) := by
  refine (W8_arr m ρ c 2).trans ?_
  refine (lin4 (V7 m ρ) c).trans ?_
  show Cert.Gcn.linear (F := Ideal) (W7 m ρ c (Proc.devRef .tc main_v56)) (W7 m ρ c (Proc.devRef .tc main_arg6)) = _
  rw [W7_arg6]

set_option maxHeartbeats 4000000 in
/-- Between two stages the host carries each source's row along its edge, scales it and adds up at the targets: the aggregation of Spec.lean. -/
theorem w9_v69 : ((W9 m ρ c (Proc.devRef .tc main_v69)) : FVec Ideal S50000x128 .f32)
    = Cert.Gcn.aggregate (F := Ideal) (m ((c : Thread nD τ).loc main_arg8)) (W8 m ρ c (Proc.devRef .tc main_v57)) := by
  show StableHlo.after hostOps5 (W8 m ρ c) (Proc.devRef .tc main_v69) = _
  after_results_simp
  rw [W8_v5, W8_v6, W8_v28, pre_v5, pre_v6, pre_v28]
  rfl

/-- A bias-and-clamp stage leaves in its output array the clamp of the entry array plus the bias. -/
theorem w10_v70 : ((W10 m ρ c (Proc.devRef .tc main_v70)) : FVec Ideal S50000x128 .f32)
    = Cert.Gcn.biasRelu (F := Ideal) (W9 m ρ c (Proc.devRef .tc main_v69)) (m ((c : Thread nD τ).loc main_arg7)) := by
  refine (W10_arr m ρ c 2).trans ?_
  refine (br5 (V9 m ρ) c).trans ?_
  show Cert.Gcn.biasRelu (F := Ideal) (W9 m ρ c (Proc.devRef .tc main_v69)) (W9 m ρ c (Proc.devRef .tc main_arg7)) = _
  rw [W9_arg7]

/-! ## The padding, the pooling stage and the division -/

theorem w14_v71 : ((W14 m ρ c (Proc.devRef .tc main_v71)) : FVec Ideal S53248x128 .f32) = padRows (F := Ideal) (W10 m ρ c (Proc.devRef .tc main_v70)) := by
  show StableHlo.after hostOps6_3 (StableHlo.after hostOps6_2 (StableHlo.after hostOps6_1 (StableHlo.after hostOps6 (W10 m ρ c)))) (Proc.devRef .tc main_v71) = _
  after_results_simp
  rfl

theorem w14_v72 : ((W14 m ρ c (Proc.devRef .tc main_v72)) : IVec S53248 32) = padBatch (m ((c : Thread nD τ).loc main_arg9)) := by
  show StableHlo.after hostOps6_3 (StableHlo.after hostOps6_2 (StableHlo.after hostOps6_1 (StableHlo.after hostOps6 (W10 m ρ c)))) (Proc.devRef .tc main_v72) = _
  after_results_simp
  rw [W10_arg9]
  rfl

/-- The pooling stage leaves the tiled sum over the padded rows. -/
theorem w15_v73 : ((W15 m ρ c (Proc.devRef .tc main_v73)) : FVec Ideal S512x128 .f32)
    = tiledPool (W14 m ρ c (Proc.devRef .tc main_v71)) (W14 m ρ c (Proc.devRef .tc main_v72)) :=
  (W15_arr m ρ c 2).trans (pool6 (V14 m ρ) c)

theorem w18_v89 : ((W18 m ρ c (Proc.devRef .tc main_v89)) : FVec Ideal S512x128 .f32)
    = Host.divf (W15 m ρ c (Proc.devRef .tc main_v73)) (cntK (F := Ideal) (m ((c : Thread nD τ).loc main_arg9))) := by
  show StableHlo.after hostOps7_2 (StableHlo.after hostOps7_1 (StableHlo.after hostOps7 (W15 m ρ c))) (Proc.devRef .tc main_v89) = _
  after_results_simp
  rw [W15_arg9]
  rfl

/-- What the tiled program leaves in its result buffer, with no negative graph number: the network of Spec.lean applied to the launch contents
    of the arguments. -/
theorem out_value (hb : ∀ j : S50000.Idx, 0 ≤ ((m ((c : Thread nD τ).loc main_arg9) : IVec S50000 32) j).toInt) :
    (W18 (F := Ideal) m ρ c (Proc.devRef .tc main_v89) : FVec Ideal S512x128 .f32)
      = Cert.Gcn.out (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [w18_v89, w15_v73, w14_v71, w14_v72, tiledPool_pad, cntK_eq _ hb, w10_v70, w9_v69, w8_v57, w7_v56, w6_v55, w5_v43, w4_v42, w3_v41, w2_v29]
  rfl

end Cert.Gcn.Kernel

end
-- ==== Proof.RefSide.lean ====
/-
  The plain program's result is the network of Spec.lean: its run's term, unfolded, is that composition.
-/
import proofs.«406955_j40956808135086_1_alg».proof.Proof.Gen.ReferenceIdeal.Run
import proofs.«406955_j40956808135086_1_alg».proof.Proof.Spec

set_option maxRecDepth 16384

noncomputable section

namespace Cert.Gcn.Ref

open Idealize.ShloMosaic Idealize.ShloMosaic.TcCoe Idealize.SL.Sem
open Cert.ReferenceIdeal Cert.ReferenceIdeal.Gen Cert.ReferenceIdeal.Value

theorem res_eq (m : (ℓ : Loc nD τ sig) → Buf (Elt Ideal) ℓ) (c : Dev nD) :
    (res_out0 (F := Ideal) m c : FVec Ideal S512x128 .f32)
      = Cert.Gcn.out (F := Ideal) (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  show res_main_v91 (F := Ideal) m c = _
  unfold res_main_v91
  rfl

end Cert.Gcn.Ref

end
-- ==== Proof.lean ====
/-
  The tiled graph network against the plain one, over the extended reals.

  Both programs run three rounds of "multiply the node rows by a weight matrix, carry each source's row along its
  edge (self loops appended) scaled by the product of the endpoints' degrees to the power −1/2, add up at the targets,
  add a bias, clamp at zero", then average each graph's rows. The tiled program multiplies and clamps in row blocks
  of 5000 (the multiplication a matrix product per block, the contraction the same sum as the whole product's), and
  pools by one-hot products over 13 blocks of 4096 padded rows added up in place; the plain program pools by a
  scatter-add. The two pooled sums agree because a padding row is a zero row of no graph, a row's indicator is 1
  exactly at the graph its word names, and finite sums of extended reals may be regrouped. The node counts agree
  once no graph number is negative: the tiled program clamps negative numbers to graph 0 before counting, the plain
  one drops them, so the statement carries "every graph number is at least 0" as part of its precondition.
  The edge arithmetic between the stages is the same host operations in both programs and is never opened.
-/
import proofs.«406955_j40956808135086_1_alg».proof.Defs
import proofs.«406955_j40956808135086_1_alg».proof.Proof.Gen.Kernel
import proofs.«406955_j40956808135086_1_alg».proof.Proof.Gen.Kernel.Skeleton
import proofs.«406955_j40956808135086_1_alg».proof.Proof.Gen.Kernel.Launch
import proofs.«406955_j40956808135086_1_alg».proof.Proof.Gen.Kernel.Points
import proofs.«406955_j40956808135086_1_alg».proof.Proof.Gen.Kernel.Frame
import proofs.«406955_j40956808135086_1_alg».proof.Proof.Gen.KernelIdeal
import proofs.«406955_j40956808135086_1_alg».proof.Proof.Gen.KernelIdeal.Skeleton
import proofs.«406955_j40956808135086_1_alg».proof.Proof.Gen.KernelIdeal.Launch
import proofs.«406955_j40956808135086_1_alg».proof.Proof.Gen.KernelIdeal.Points
import proofs.«406955_j40956808135086_1_alg».proof.Proof.Gen.KernelIdeal.Frame
import proofs.«406955_j40956808135086_1_alg».proof.Proof.Gen.ReferenceIdeal
import proofs.«406955_j40956808135086_1_alg».proof.Proof.Gen.ReferenceIdeal.Run
import proofs.«406955_j40956808135086_1_alg».proof.Proof.Gen.ReferenceIdeal.Read
import proofs.«406955_j40956808135086_1_alg».proof.Proof.Gen.Pre_finite_inputs
import proofs.«406955_j40956808135086_1_alg».proof.Proof.KernelRun
import proofs.«406955_j40956808135086_1_alg».proof.Proof.KernelValue
import proofs.«406955_j40956808135086_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the network of Spec.lean applied to the (agreeing) arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Gen.W18 (F := Ideal) m ρ c (Proc.devRef .tc Cert.KernelIdeal.main_v89), Cert.KernelIdeal.GenRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, h4, h5, h6, h7, h8, h9⟩ := hagree c
  refine (Cert.Gcn.Ref.res_eq m' c).trans ?_
  rw [h0, h2, h3, h4, h5, h6, h7, h8, h9]
  exact (Cert.Gcn.Kernel.out_value m ρ c (fun j => Cert.Gcn.Kernel.batch_nonneg_of_pre m hpre c j)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
